-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S500000x256 : Shape := ⟨2, ![500000, 256]⟩
abbrev S500000x2 : Shape := ⟨2, ![500000, 2]⟩
abbrev S768x256 : Shape := ⟨2, ![768, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S500000x256 : S_.BroadcastsInDim S500000x256 (![] : Fin 0 → Fin S500000x256.rank)
  reducesTo_S500000x256_S_d0_1 : S500000x256.ReducesTo [0, 1] S_
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S500000x2 : S_.BroadcastsInDim S500000x2 (![] : Fin 0 → Fin S500000x2.rank)
  reducesTo_S500000x2_S_d0_1 : S500000x2.ReducesTo [0, 1] S_

variable [Facts]

def fn_part2 {F : FTy → Type} [FloatOps F] (main_v28 : IVec S_ 1) (main_v33 : IVec S500000x2 1) : IVec S_ 1 :=
  let main_c_12 : IVec S_ 1 := constantI S_ 1 1#1
  let main_v34 : IVec S_ 1 := (fun x v => Host.reduce IntOp.andi x v reducesTo_S500000x2_S_d0_1 h_S_) main_v33 main_c_12
  let main_v35 : IVec S_ 1 := andi main_v28 main_v34
  main_v35

def fn_part1 {F : FTy → Type} [FloatOps F] (main_arg2 : IVec S500000x2 32) (main_arg5 : FVec F S256 .f32) (main_arg6 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_c_10 : IVec S_ 32 := constantI S_ 32 4294867296#32
  let main_v29 : IVec S500000x2 32 := broadcastInDim S500000x2 ![] bcast_S_S500000x2 main_c_10
  let main_v30 : IVec S500000x2 1 := cmpi .sge main_arg2 main_v29
  let main_c_11 : IVec S_ 32 := constantI S_ 32 100000#32
  let main_v31 : IVec S500000x2 32 := broadcastInDim S500000x2 ![] bcast_S_S500000x2 main_c_11
  let main_v32 : IVec S500000x2 1 := cmpi .slt main_arg2 main_v31
  let main_v33 : IVec S500000x2 1 := andi main_v30 main_v32
  fn_part2 (F := F) main_v28 main_v33

def fn {F : FTy → Type} [FloatOps F] (main_arg0 : FVec F S100000x256 .f32) (main_arg1 : FVec F S500000x256 .f32) (main_arg2 : IVec S500000x2 32) (main_arg3 : FVec F S768x256 .f32) (main_arg4 : FVec F S256 .f32) (main_arg5 : FVec F S256 .f32) (main_arg6 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S500000x256 .f32 := Host.absf main_arg1
  let main_cst_0 : FVec F S_ .f32 := constant S_ .f32 0x7F800000#32
  let main_v5 : FVec F S500000x256 .f32 := broadcastInDim S500000x256 ![] bcast_S_S500000x256 main_cst_0
  let main_v6 : IVec S500000x256 1 := cmpf .olt main_v4 main_v5
  let main_c_1 : IVec S_ 1 := constantI S_ 1 1#1
  let main_v7 : IVec S_ 1 := (fun x v => Host.reduce IntOp.andi x v reducesTo_S500000x256_S_d0_1 h_S_) main_v6 main_c_1
  let main_v8 : IVec S_ 1 := andi main_v3 main_v7
  let main_v9 : FVec F S768x256 .f32 := Host.absf main_arg3
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg5 main_arg6 main_v13 main_v16
-- ==== Kernel.lean ====
abbrev S100000x256 : Shape := ⟨2, ![100000, 256]⟩
abbrev S500000x256 : Shape := ⟨2, ![500000, 256]⟩
abbrev S500000x2 : Shape := ⟨2, ![500000, 2]⟩
abbrev S768x256 : Shape := ⟨2, ![768, 256]⟩
abbrev S256 : Shape := ⟨1, ![256]⟩
abbrev S500000x1 : Shape := ⟨2, ![500000, 1]⟩
abbrev S500000 : Shape := ⟨1, ![500000]⟩
abbrev S1000000 : Shape := ⟨1, ![1000000]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1000000x256 : Shape := ⟨2, ![1000000, 256]⟩
abbrev S256x256 : Shape := ⟨2, ![256, 256]⟩
abbrev S1x256 : Shape := ⟨2, ![1, 256]⟩
abbrev S5000x256 : Shape := ⟨2, ![5000, 256]⟩
abbrev S5000 : Shape := ⟨1, ![5000]⟩
abbrev S5000x1 : Shape := ⟨2, ![5000, 1]⟩

abbrev nBuf : Space → Nat
  | .hbm => 44
  | .vmem => 14
  | .smem => 0
  | _ => 0

abbrev bufTy : (tb : Table) → Fin (tcTables nBuf tb) → BufTy
  | .hbm, ⟨0, _⟩ => ⟨S100000x256, .f32⟩
  | .hbm, ⟨1, _⟩ => ⟨S500000x256, .f32⟩
  | .hbm, ⟨2, _⟩ => ⟨S500000x2, .i32⟩
  | .hbm, ⟨3, _⟩ => ⟨S768x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S500000x1, .i32⟩
  | .hbm, ⟨8, _⟩ => ⟨S500000, .i32⟩
  | .hbm, ⟨9, _⟩ => ⟨S500000x1, .i32⟩
  | .hbm, ⟨10, _⟩ => ⟨S500000, .i32⟩
  | .hbm, ⟨11, _⟩ => ⟨S1000000, .i32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1, .i32⟩
  | .hbm, ⟨21, _⟩ => ⟨S_, .i32⟩
  | .hbm, ⟨22, _⟩ => ⟨S1000000x1, .i32⟩
  | .hbm, ⟨23, _⟩ => ⟨S1000000x1, .i1⟩
  | .hbm, ⟨24, _⟩ => ⟨S1x1, .i32⟩
  | .hbm, ⟨25, _⟩ => ⟨S1000000x1, .i32⟩
  | .hbm, ⟨26, _⟩ => ⟨S1000000x1, .i1⟩
  | .hbm, ⟨27, _⟩ => ⟨S1000000x1, .i1⟩
  | .hbm, ⟨28, _⟩ => ⟨S_, .i1⟩
  | .hbm, ⟨29, _⟩ => ⟨S1000000, .i1⟩
  | .hbm, ⟨30, _⟩ => ⟨S1000000x256, .f32⟩
  | .hbm, ⟨31, _⟩ => ⟨S1000000x256, .i1⟩
  | .hbm, ⟨32, _⟩ => ⟨S_, .f32⟩
  | .hbm, ⟨33, _⟩ => ⟨S1000000x256, .f32⟩
  | .hbm, ⟨34, _⟩ => ⟨S1000000x256, .f32⟩
  | .hbm, ⟨35, _⟩ => ⟨S500000x256, .f32⟩
  | .hbm, ⟨36, _⟩ => ⟨S500000x256, .f32⟩
  | .hbm, ⟨37, _⟩ => ⟨S256x256, .f32⟩
  | .hbm, ⟨38, _⟩ => ⟨S256x256, .f32⟩
  | .hbm, ⟨39, _⟩ => ⟨S256x256, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S500000x256, .f32⟩
  | .local _ .vmem, ⟨0, _⟩ => ⟨S5000x256, .f32⟩
  | .local _ .vmem, ⟨1, _⟩ => ⟨S5000x256, .f32⟩
  | .local _ .vmem, ⟨2, _⟩ => ⟨S5000x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S5000x256, .f32⟩
  | .local _ .vmem, ⟨13, _⟩ => ⟨S5000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S500000x2_S500000x1_0_0 : S500000x2.Slices ![0, 0] S500000x1
  shapeCasts_S500000x1_S500000 : S500000x1.ShapeCasts S500000
  slices_S500000x2_S500000x1_0_1 : S500000x2.Slices ![0, 1] S500000x1
  concatenates_S500000_S500000_S1000000_d0 : Shape.Concatenates [S500000, S500000] S1000000 0
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x256_0 : S1000000.BroadcastsInDim S1000000x256 (![0] : Fin 1 → Fin S1000000x256.rank)
  bcast_S_S1000000x256 : S_.BroadcastsInDim S1000000x256 (![] : Fin 0 → Fin S1000000x256.rank)
  slices_S1000000x256_S500000x256_0_0 : S1000000x256.Slices ![0, 0] S500000x256
  slices_S1000000x256_S500000x256_500000_0 : S1000000x256.Slices ![500000, 0] S500000x256
  slices_S768x256_S256x256_0_0 : S768x256.Slices ![0, 0] S256x256
  slices_S768x256_S256x256_256_0 : S768x256.Slices ![256, 0] S256x256
  slices_S768x256_S256x256_512_0 : S768x256.Slices ![512, 0] S256x256
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  reduces_S5000x256_S5000 : S5000x256.Reduces [1] S5000
  shapeCasts_S5000_S5000x1 : S5000.ShapeCasts S5000x1
  broadcasts_S5000x1_S5000x256 : S5000x1.Broadcasts S5000x256
  gather_S100000x256_S1000000x1_S1000000x256_1_0_n_n_0_1_1256_wf : GatherDims.WF S100000x256 S1000000x1 S1000000x256 [1] [0] [] [0] [] 1 ![1, 256]
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S500000x256.size a
  hwx0_0 : ∀ i : grid0.Coords, EltTy.bits .f32 = 32 ∨ (Rect.block (s := S500000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S500000x256.size a
  hwx0_1 : ∀ i : grid0.Coords, EltTy.bits .f32 = 32 ∨ (Rect.block (s := S500000x256) S5000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S500000x256.size a
  hwx0_2 : ∀ i : grid0.Coords, EltTy.bits .f32 = 32 ∨ (Rect.block (s := S500000x256) S5000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x256.size a ≤ S500000x256.size a
  hwx0_9 : ∀ i : grid0.Coords, EltTy.bits .f32 = 32 ∨ (Rect.block (s := S500000x256) S5000x256.size (cc0_transform_9 i) (hinb0_9 i)).WholeWords (EltTy.packing .f32)

variable [Facts₀]

def gather_S100000x256_S1000000x1_S1000000x256_1_0_n_n_0_1_1256 : GatherDims S100000x256 S1000000x1 S1000000x256 where
  offsetDims := [1]
  collapsedSliceDims := [0]
  operandBatchingDims := []
  startIndicesBatchingDims := []
  startIndexMap := [0]
  indexVectorDim := 1
  sliceSizes := ![1, 256]
  wf := gather_S100000x256_S1000000x1_S1000000x256_1_0_n_n_0_1_1256_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_v6) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S5000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x256 : Shape := ⟨2, ![100000, 256]⟩
abbrev S500000x256 : Shape := ⟨2, ![500000, 256]⟩
abbrev S500000x2 : Shape := ⟨2, ![500000, 2]⟩
abbrev S768x256 : Shape := ⟨2, ![768, 256]⟩
abbrev S256 : Shape := ⟨1, ![256]⟩
abbrev S500000x1 : Shape := ⟨2, ![500000, 1]⟩
abbrev S500000 : Shape := ⟨1, ![500000]⟩
abbrev S_ : Shape := ⟨0, ![]⟩
abbrev S256x256 : Shape := ⟨2, ![256, 256]⟩
abbrev S1x256 : Shape := ⟨2, ![1, 256]⟩

abbrev nBuf : Space → Nat
  | .hbm => 77
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S500000x256, .f32⟩
  | .hbm, ⟨2, _⟩ => ⟨S500000x2, .i32⟩
  | .hbm, ⟨3, _⟩ => ⟨S768x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S500000x1, .i32⟩
  | .hbm, ⟨8, _⟩ => ⟨S500000, .i32⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S500000x256, .f32⟩
  | .hbm, ⟨18, _⟩ => ⟨S500000x1, .i32⟩
  | .hbm, ⟨19, _⟩ => ⟨S500000, .i32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S500000x256, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S500000x256, .f32⟩
  | .hbm, ⟨33, _⟩ => ⟨S500000x256, .f32⟩
  | .hbm, ⟨34, _⟩ => ⟨S500000x256, .f32⟩
  | .hbm, ⟨35, _⟩ => ⟨S500000x256, .f32⟩
  | .hbm, ⟨36, _⟩ => ⟨S500000x256, .f32⟩
  | .hbm, ⟨37, _⟩ => ⟨S1x256, .f32⟩
  | .hbm, ⟨38, _⟩ => ⟨S500000x256, .f32⟩
  | .hbm, ⟨39, _⟩ => ⟨S500000x256, .f32⟩
  | .hbm, ⟨40, _⟩ => ⟨S_, .f32⟩
  | .hbm, ⟨41, _⟩ => ⟨S500000x256, .f32⟩
  | .hbm, ⟨42, _⟩ => ⟨S500000x256, .i1⟩
  | .hbm, ⟨43, _⟩ => ⟨S_, .f32⟩
  | .hbm, ⟨44, _⟩ => ⟨S500000x256, .f32⟩
  | .hbm, ⟨45, _⟩ => ⟨S500000x256, .f32⟩
  | .hbm, ⟨46, _⟩ => ⟨S500000x256, .f32⟩
  | .hbm, ⟨47, _⟩ => ⟨S500000x256, .f32⟩
  | .hbm, ⟨48, _⟩ => ⟨S_, .f32⟩
  | .hbm, ⟨49, _⟩ => ⟨S500000, .f32⟩
  | .hbm, ⟨50, _⟩ => ⟨S500000x1, .f32⟩
  | .hbm, ⟨51, _⟩ => ⟨S_, .f32⟩
  | .hbm, ⟨52, _⟩ => ⟨S500000x1, .f32⟩
  | .hbm, ⟨53, _⟩ => ⟨S500000x1, .f32⟩
  | .hbm, ⟨54, _⟩ => ⟨S500000x256, .f32⟩
  | .hbm, ⟨55, _⟩ => ⟨S500000x256, .f32⟩
  | .hbm, ⟨56, _⟩ => ⟨S500000x256, .f32⟩
  | .hbm, ⟨57, _⟩ => ⟨S_, .f32⟩
  | .hbm, ⟨58, _⟩ => ⟨S500000, .f32⟩
  | .hbm, ⟨59, _⟩ => ⟨S500000x1, .f32⟩
  | .hbm, ⟨60, _⟩ => ⟨S_, .f32⟩
  | .hbm, ⟨61, _⟩ => ⟨S500000x1, .f32⟩
  | .hbm, ⟨62, _⟩ => ⟨S500000x1, .f32⟩
  | .hbm, ⟨63, _⟩ => ⟨S500000x256, .f32⟩
  | .hbm, ⟨64, _⟩ => ⟨S500000x256, .f32⟩
  | .hbm, ⟨65, _⟩ => ⟨S1x256, .f32⟩
  | .hbm, ⟨66, _⟩ => ⟨S500000x256, .f32⟩
  | .hbm, ⟨67, _⟩ => ⟨S500000x256, .f32⟩
  | .hbm, ⟨68, _⟩ => ⟨S_, .f32⟩
  | .hbm, ⟨69, _⟩ => ⟨S500000x1, .f32⟩
  | .hbm, ⟨70, _⟩ => ⟨S500000x1, .f32⟩
  | .hbm, ⟨71, _⟩ => ⟨S500000x1, .f32⟩
  | .hbm, ⟨72, _⟩ => ⟨S500000x256, .f32⟩
  | .hbm, ⟨73, _⟩ => ⟨S500000x256, .f32⟩
  | .hbm, ⟨74, _⟩ => ⟨S1x256, .f32⟩
  | .hbm, ⟨75, _⟩ => ⟨S500000x256, .f32⟩
  | .hbm, ⟨76, _⟩ => ⟨S500000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]

class Facts₀ : Prop where
  slices_S500000x2_S500000x1_0_0 : S500000x2.Slices ![0, 0] S500000x1
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S500000x2_S500000x1_0_1 : S500000x2.Slices ![0, 1] S500000x1
  slices_S768x256_S256x256_0_0 : S768x256.Slices ![0, 0] S256x256
  slices_S768x256_S256x256_256_0 : S768x256.Slices ![256, 0] S256x256
  slices_S768x256_S256x256_512_0 : S768x256.Slices ![512, 0] S256x256
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  reducesTo_S500000x256_S500000_d1 : S500000x256.ReducesTo [1] S500000
  h_S_ : 0 < S_.numel
  bcast_S_S500000x1 : S_.BroadcastsInDim S500000x1 (![] : Fin 0 → Fin S500000x1.rank)
  bcast_S500000x1_S500000x256_0_1 : S500000x1.BroadcastsInDim S500000x256 (![0, 1] : Fin 2 → Fin S500000x256.rank)
  gather_S100000x256_S500000x1_S500000x256_1_0_n_n_0_1_1256_wf : GatherDims.WF S100000x256 S500000x1 S500000x256 [1] [0] [] [0] [] 1 ![1, 256]
  dot_S500000x256_S256x256_S500000x256_1_0_0_1_n_n_wf : DotDims.WF S500000x256 S256x256 S500000x256 [1] [0] [0] [1] [] []

variable [Facts₀]

def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf

class Facts : Prop extends Facts₀ where

variable [Facts]
-- ==== Proof.EdgeSpec.lean ====
/-
  THE EDGE UPDATE, AS ONE FUNCTION OF ITS ARGUMENTS.

  For edge p with head node h(p) and tail node t(p), and the weight W : [768, 256] read as three stacked
  [256, 256] blocks Wh, We, Wt:

      z(p, q)   = (Σ_k H[h(p), k]·Wh[k, q] + Σ_k E[p, k]·We[k, q]) + Σ_k H[t(p), k]·Wt[k, q] + b[q]
      x(p, q)   = leaky(z(p, q)) + E[p, q]            leaky(z) = z if z ≥ 0, else slope·z  (slope the f32 word of 0.01)
      μ(p)      = (Σ_q x(p, q)) / 256
      σ²(p)     = (Σ_q (x(p, q) − μ(p))²) / 256
      out(p, q) = γ[q]·(x(p, q) − μ(p))·rsqrt(σ²(p) + ε) + β[q]          (ε the f32 word of 1e-5)

  on the extended reals, every sum, product and quotient exact. A row of the result depends on one row of each of the
  gathered head and tail features and of E, so the function is stated row by row (`edgeRow`), and the two array forms
  below only say which rows: `ofRows` over already gathered head and tail arrays (what the kernel's region sees), and
  `ofArgs` over the node table and the index pairs, where the node of an index word v is the word read as a signed
  integer, shifted up by the table's 100000 rows when negative (numpy's reading of a negative index) and then clamped
  into the table (`nodeRow`).
-/
import Idealize.ShloMosaic.PureOps.Ideal
import Idealize.ShloMosaic.Lib.ValueIdx

noncomputable section

namespace Cert.EdgeUpdate

open Idealize.ShloMosaic Idealize.ShloMosaic.ValueIdx

/-- The three products of a row, summed in the programs' grouping, plus the bias: z(p, q) for the rows hd, e, tl of edge p. -/
def mix (hd e tl : Fin 256 → EReal) (Wh We Wt : Fin 256 → Fin 256 → EReal) (b : Fin 256 → EReal) (q : Fin 256) : EReal :=
  ((∑ k : Fin 256, hd k * Wh k q) + (∑ k : Fin 256, e k * We k q)) + (∑ k : Fin 256, tl k * Wt k q) + b q

/-- The leaky rectifier: z where z ≥ 0, the slope word times z elsewhere. -/
def leaky (z : EReal) : EReal :=
  Scalar.select (FloatOps.cmpf (F := Ideal) (φ := .f32) .oge z (Ideal.ofBits .f32 0x00000000#32)) z
    (Ideal.ofBits .f32 0x3C23D70A#32 * z)

/-- x(p, ·): the rectified mix plus the residual row of E. -/
def resid (hd e tl : Fin 256 → EReal) (Wh We Wt : Fin 256 → Fin 256 → EReal) (b : Fin 256 → EReal) (q : Fin 256) : EReal :=
  leaky (mix hd e tl Wh We Wt b q) + e q

/-- μ of a row: its sum over the 256 features, divided by the word of 256. -/
def rowMean (x : Fin 256 → EReal) : EReal :=
  Ideal.div (∑ j : Fin 256, x j) (Ideal.ofBits .f32 0x43800000#32)

/-- σ² of a row: the sum of the squared deviations from μ, divided by the word of 256. -/
def rowVar (x : Fin 256 → EReal) : EReal :=
  Ideal.div (∑ j : Fin 256, (x j - rowMean x) * (x j - rowMean x)) (Ideal.ofBits .f32 0x43800000#32)

/-- The layer norm of a row x with scale γ and shift β, at feature q. -/
def normRow (x g be : Fin 256 → EReal) (q : Fin 256) : EReal :=
  g q * (x q - rowMean x) * Ideal.rsqrt (rowVar x + Ideal.ofBits .f32 0x3727C5AC#32) + be q

/-- One element of the result from the rows it depends on. -/
def edgeRow (hd e tl : Fin 256 → EReal) (Wh We Wt : Fin 256 → Fin 256 → EReal) (b g be : Fin 256 → EReal) (q : Fin 256) : EReal :=
  normRow (resid hd e tl Wh We Wt b) g be q

/-- The result over gathered head and tail arrays, the three weight blocks, and the bias, scale and shift kept as [1, 256] rows. -/
def ofRows (head tail E : (⟨2, ![500000, 256]⟩ : Shape).Idx → EReal) (Wh We Wt : (⟨2, ![256, 256]⟩ : Shape).Idx → EReal)
    (b g be : (⟨2, ![1, 256]⟩ : Shape).Idx → EReal) : (⟨2, ![500000, 256]⟩ : Shape).Idx → EReal := fun i =>
  edgeRow (fun k => head (ix2 (i 0) k)) (fun k => E (ix2 (i 0) k)) (fun k => tail (ix2 (i 0) k))
    (fun k j => Wh (ix2 k j)) (fun k j => We (ix2 k j)) (fun k j => Wt (ix2 k j))
    (fun j => b (ix2 (0 : Fin 1) j)) (fun j => g (ix2 (0 : Fin 1) j)) (fun j => be (ix2 (0 : Fin 1) j)) (i 1)

/-- An index word with numpy's reading of a negative index: 100000 added when the word is negative as a signed integer. -/
def wrapWord (v : BitVec 32) : BitVec 32 :=
  Scalar.select (IntOp.cmpi .slt v 0#32) (IntOp.addi v 100000#32) v

/-- The row of the node table an index word names: the wrapped word as a signed integer, clamped into [0, 99999]. -/
def nodeRow (v : BitVec 32) : Fin 100000 := ⟨min (wrapWord v).toInt.toNat (100000 - 1), by omega⟩

/-- The result over the program's arguments: the node table H, the edge features E, the [500000, 2] head and tail
    index pairs, the stacked weight, and the bias, scale and shift vectors. -/
def ofArgs (H : (⟨2, ![100000, 256]⟩ : Shape).Idx → EReal) (E : (⟨2, ![500000, 256]⟩ : Shape).Idx → EReal)
    (ht : IVec ⟨2, ![500000, 2]⟩ 32) (W : (⟨2, ![768, 256]⟩ : Shape).Idx → EReal)
    (b g be : (⟨1, ![256]⟩ : Shape).Idx → EReal) : (⟨2, ![500000, 256]⟩ : Shape).Idx → EReal := fun i =>
  edgeRow (fun k => H (ix2 (nodeRow (ht (ix2 (i 0) (0 : Fin 2)))) k)) (fun k => E (ix2 (i 0) k))
    (fun k => H (ix2 (nodeRow (ht (ix2 (i 0) (1 : Fin 2)))) k))
    (fun k j => W (ix2 (⟨k.val, by omega⟩ : Fin 768) j)) (fun k j => W (ix2 (⟨256 + k.val, by omega⟩ : Fin 768) j))
    (fun k j => W (ix2 (⟨512 + k.val, by omega⟩ : Fin 768) j))
    (fun j => b (ix1 j)) (fun j => g (ix1 j)) (fun j => be (ix1 j)) (i 1)

end Cert.EdgeUpdate

end
-- ==== Proof.EdgeBridge.lean ====
/-
  FROM GATHERED ROWS TO THE ARGUMENTS.

  `ofRows` takes the head and tail features already gathered, the weight already split into its three row blocks, and
  the bias, scale and shift as [1, 256] rows; `ofArgs` takes the node table, the index pairs, the stacked weight and the
  three vectors. They are the same function as soon as each array on the left reads, element by element, as the
  corresponding piece of the arguments: row p of the gathered head array is the node table's row `nodeRow ht[p, 0]`, row p
  of the tail array its row `nodeRow ht[p, 1]`, the weight blocks are rows k, 256 + k and 512 + k of the stacked weight, and
  the [1, 256] rows are the vectors. Both sides are then `edgeRow` of equal rows.
-/
import proofs.«407152_j32976758898975_3_alg».proof.Proof.EdgeSpec

noncomputable section

namespace Cert.EdgeUpdate

open Idealize.ShloMosaic Idealize.ShloMosaic.ValueIdx

theorem ofRows_eq_ofArgs
    (head tail Er : (⟨2, ![500000, 256]⟩ : Shape).Idx → EReal) (Wh We Wt : (⟨2, ![256, 256]⟩ : Shape).Idx → EReal)
    (b2 g2 be2 : (⟨2, ![1, 256]⟩ : Shape).Idx → EReal)
    (H : (⟨2, ![100000, 256]⟩ : Shape).Idx → EReal) (E : (⟨2, ![500000, 256]⟩ : Shape).Idx → EReal)
    (ht : IVec ⟨2, ![500000, 2]⟩ 32) (W : (⟨2, ![768, 256]⟩ : Shape).Idx → EReal) (b g be : (⟨1, ![256]⟩ : Shape).Idx → EReal)
    (hhead : ∀ (p : Fin 500000) (k : Fin 256), head (ix2 p k) = H (ix2 (nodeRow (ht (ix2 p (0 : Fin 2)))) k))
    (htail : ∀ (p : Fin 500000) (k : Fin 256), tail (ix2 p k) = H (ix2 (nodeRow (ht (ix2 p (1 : Fin 2)))) k))
    (hE : ∀ (p : Fin 500000) (k : Fin 256), Er (ix2 p k) = E (ix2 p k))
    (hWh : ∀ k j : Fin 256, Wh (ix2 k j) = W (ix2 (⟨k.val, by omega⟩ : Fin 768) j))
    (hWe : ∀ k j : Fin 256, We (ix2 k j) = W (ix2 (⟨256 + k.val, by omega⟩ : Fin 768) j))
    (hWt : ∀ k j : Fin 256, Wt (ix2 k j) = W (ix2 (⟨512 + k.val, by omega⟩ : Fin 768) j))
    (hb : ∀ j : Fin 256, b2 (ix2 (0 : Fin 1) j) = b (ix1 j))
    (hg : ∀ j : Fin 256, g2 (ix2 (0 : Fin 1) j) = g (ix1 j))
    (hbe : ∀ j : Fin 256, be2 (ix2 (0 : Fin 1) j) = be (ix1 j)) :
    ofRows head tail Er Wh We Wt b2 g2 be2 = ofArgs H E ht W b g be := by
  funext i
  obtain ⟨p, q, rfl⟩ : ∃ (p : Fin 500000) (q : Fin 256), i = ix2 p q := ⟨i 0, i 1, eq_ix2 i⟩
  show edgeRow (fun k => head (ix2 p k)) (fun k => Er (ix2 p k)) (fun k => tail (ix2 p k))
      (fun k j => Wh (ix2 k j)) (fun k j => We (ix2 k j)) (fun k j => Wt (ix2 k j))
      (fun j => b2 (ix2 (0 : Fin 1) j)) (fun j => g2 (ix2 (0 : Fin 1) j)) (fun j => be2 (ix2 (0 : Fin 1) j)) q
    = edgeRow (fun k => H (ix2 (nodeRow (ht (ix2 p (0 : Fin 2)))) k)) (fun k => E (ix2 p k))
      (fun k => H (ix2 (nodeRow (ht (ix2 p (1 : Fin 2)))) k))
      (fun k j => W (ix2 (⟨k.val, by omega⟩ : Fin 768) j)) (fun k j => W (ix2 (⟨256 + k.val, by omega⟩ : Fin 768) j))
      (fun k j => W (ix2 (⟨512 + k.val, by omega⟩ : Fin 768) j))
      (fun j => b (ix1 j)) (fun j => g (ix1 j)) (fun j => be (ix1 j)) q
  congr 1
  · funext k; exact hhead p k
  · funext k; exact hE p k
  · funext k; exact htail p k
  · funext k j; exact hWh k j
  · funext k j; exact hWe k j
  · funext k j; exact hWt k j
  · funext j; exact hb j
  · funext j; exact hg j
  · funext j; exact hbe j

end Cert.EdgeUpdate

end
-- ==== Proof.LibRowGather.lean ====
/-
  THE ROW GATHER READ AT AN INDEX. What `table[idx]` of a rank-2 table `table : [N, C]` at a vector of row indices
  lowers to: a `stablehlo.gather` with offset_dims `[1]`, collapsed_slice_dims `[0]`, start_index_map `[0]`,
  index_vector_dim `1` and slice_sizes `[1, C]`, over the indices kept as an `[n, 1]` column. Its result is `[n, C]`,
  and the element at `(p, q)` is the table's at `(row, q)`, where `row` is the start index `idx[p, 0]` read as a SIGNED
  integer and CLAMPED into `[0, N − 1]` (StableHLO clamps every start index so that the slice fits; here the slice is
  one row, so the clamp is to the last row): a negative index reads row `0`, one past the end reads row `N − 1`.

  `rowDims` is the record of those dimension numbers, written as a literal structure so that every list lookup in the
  gather's operand index computes; `rowGather_apply` is the read. The lemma is general in `N`, `C`, `n`, the index
  width `w` and the element type; the conditions `wf` on the dimension numbers are decided on a program's literal
  shapes. This is the rank-2 companion of `ValueIdx.gather_take_apply` (a rank-1 table).
-/
import Idealize.ShloMosaic.PureOps.Ideal
import Idealize.ShloMosaic.Lib.ValueIdx
noncomputable section
namespace Idealize.ShloMosaic.RowGather
open Idealize.ShloMosaic Idealize.ShloMosaic.ValueIdx

/-- The dimension numbers of a row gather out of an [N, C] table at an [n, 1] column of row indices. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- The row gather read at (p, q): the table at the clamped signed start index of row p, column q. -/
theorem rowGather_apply {α : Type} {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 (⟨min (idx (ix2 p (0 : Fin 1))).toInt.toNat (N - 1), by omega⟩ : Fin N) q) := by
  -- the gather reads the operand at its operand index: compare the two indices axis by axis, as naturals
  unfold Host.gather
  congr 1
  funext a
  refine Fin.ext ?_
  match a with
  | ⟨0, _⟩ =>
    -- AXIS 0, collapsed and start-indexed: no batching coordinate (no batching axes), no offset coordinate (a collapsed
    -- axis is not a kept one), so the operand coordinate is the clamped start alone
    show (rowDims N C n wf).start (ix2 p q) idx 0 + (rowDims N C n wf).batchCoord (ix2 p q) 0
        + (rowDims N C n wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C n wf).startIndexMap from List.mem_singleton.mpr rfl)]
    -- the start index's one component is read at (p, 0): the result's batch coordinate p on the start indices' axis 0,
    -- the component's number 0 on the index vector's axis 1
    have hsi : (rowDims N C n wf).siIdx (ix2 p q) ⟨List.idxOf (0 : Fin 2) (rowDims N C n wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    -- the clamp's upper end: the axis's extent N less the slice size 1
    rfl
  | ⟨1, _⟩ =>
    -- AXIS 1, an offset axis: the start index map does not name it, so the start is 0; there is no batching
    -- coordinate; it is the operand's one kept axis, read by the result's one offset axis, whose coordinate is q
    show (rowDims N C n wf).start (ix2 p q) idx 1 + (rowDims N C n wf).batchCoord (ix2 p q) 1
        + (rowDims N C n wf).offCoord (ix2 p q) 1 = q.val
    have hk : (1 : Fin 2) ∈ (rowDims N C n wf).sKept :=
      (GatherDims.mem_sKept _ _).mpr ⟨by show (1 : Fin 2) ∉ [(0 : Fin 2)]; decide, List.not_mem_nil⟩
    rw [GatherDims.batchCoord_eq_zero _ _ _ List.not_mem_nil]
    unfold GatherDims.start GatherDims.offCoord
    rw [dif_neg (show (1 : Fin 2) ∉ (rowDims N C n wf).startIndexMap by
      show (1 : Fin 2) ∉ [(0 : Fin 2)]; decide), dif_pos hk]
    simp only [Nat.zero_add]
    rfl
end Idealize.ShloMosaic.RowGather
end
-- ==== Proof.KernelRow.lean ====
/-
  ONE BLOCK OF THE KERNEL, ROW BY ROW.

  At a grid point the kernel body holds a [5000, 256] block of each of the gathered head rows, the gathered tail rows
  and E, the three [256, 256] weight blocks whole, and the bias, scale and shift as [1, 256] rows. What it stores at
  (r, q) of the output block depends on row r of the three [5000, 256] blocks only: it is `edgeRow` of those rows.

  The pieces, each read at explicit coordinates: a product into the zero accumulator is the sum over the contracted
  axis of the operands' products (no accumulator left, since the zero word is 0); a sum along the lane axis is the sum
  over the 256 features of the row; a [1, 256] row broadcast down the block reads the row at the column; a per-row
  value kept as a [5000, 1] column and broadcast along the lanes reads the column at the row.
-/
import proofs.«407152_j32976758898975_3_alg».proof.Proof.Gen.KernelIdeal.Value
import proofs.«407152_j32976758898975_3_alg».proof.Proof.EdgeSpec
import Idealize.ShloMosaic.Lib.ValueIdx
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.TcCoe Idealize.ShloMosaic.ValueIdx Cert.EdgeUpdate

/-! ## The product's operand indices, axis by axis -/

theorem lhs_axis0 (i : S5000x256.Idx) (κ : dot_S5000x256_S256x256_S5000x256_1_0_0_1_n_n.contr.Idx) : (dot_S5000x256_S256x256_S5000x256_1_0_0_1_n_n.lhsIdx i κ 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem lhs_axis1 (i : S5000x256.Idx) (κ : dot_S5000x256_S256x256_S5000x256_1_0_0_1_n_n.contr.Idx) : (dot_S5000x256_S256x256_S5000x256_1_0_0_1_n_n.lhsIdx i κ 1).val = (κ ⟨0, by decide⟩).val :=
  dot_S5000x256_S256x256_S5000x256_1_0_0_1_n_n.lhsIdx_val_of_single rfl i κ
theorem rhs_axis0 (i : S5000x256.Idx) (κ : dot_S5000x256_S256x256_S5000x256_1_0_0_1_n_n.contr.Idx) : (dot_S5000x256_S256x256_S5000x256_1_0_0_1_n_n.rhsIdx i κ 0).val = (κ ⟨0, by decide⟩).val :=
  dot_S5000x256_S256x256_S5000x256_1_0_0_1_n_n.rhsIdx_val_of_single rfl i κ
theorem rhs_axis1 (i : S5000x256.Idx) (κ : dot_S5000x256_S256x256_S5000x256_1_0_0_1_n_n.contr.Idx) : (dot_S5000x256_S256x256_S5000x256_1_0_0_1_n_n.rhsIdx i κ 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- A [5000, 256] × [256, 256] product into the zero accumulator, at (r, q): Σ_k l[r, k]·w[k, q]. -/
theorem product_apply (l : FVec Ideal S5000x256 .f32) (w : FVec Ideal S256x256 .f32) (r : Fin 5000) (q : Fin 256) :
    matmul dot_S5000x256_S256x256_S5000x256_1_0_0_1_n_n none l w (constant (F := Ideal) S5000x256 .f32 0x00000000#32) (ix2 r q)
      = ∑ k : Fin 256, l (ix2 r k) * w (ix2 k q) := by
  simp only [matmul]
  rw [Ideal.matmul_constant_zero_apply, ← Equiv.sum_comp (ValueIdx.contrEquiv1 dot_S5000x256_S256x256_S5000x256_1_0_0_1_n_n 256 rfl rfl).symm]
  refine Finset.sum_congr rfl fun k _ => ?_
  have hk := ValueIdx.contrEquiv1_symm_val dot_S5000x256_S256x256_S5000x256_1_0_0_1_n_n 256 rfl rfl k
  have el : dot_S5000x256_S256x256_S5000x256_1_0_0_1_n_n.lhsIdx (ix2 r q) ((ValueIdx.contrEquiv1 dot_S5000x256_S256x256_S5000x256_1_0_0_1_n_n 256 rfl rfl).symm k) = ix2 r k := funext fun a => Fin.ext (by
    match a with
    | ⟨0, _⟩ => exact lhs_axis0 _ _
    | ⟨1, _⟩ => exact (lhs_axis1 _ _).trans hk)
  have er : dot_S5000x256_S256x256_S5000x256_1_0_0_1_n_n.rhsIdx (ix2 r q) ((ValueIdx.contrEquiv1 dot_S5000x256_S256x256_S5000x256_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-! ## Sums along the lanes, and the broadcasts -/

/-- The sum of a [5000, 256] block along its lanes, at row r: Σ_k X[r, k]. -/
theorem laneSum_apply (X : FVec Ideal S5000x256 .f32) (hφ : FTy.f32 = FTy.f32 ∨ FTy.f32 = FTy.bf16)
    (hacc : (0x00000000#32 : BitVec 32) = 0x00000000#32) (r : Fin 5000) :
    multiReduction .add [1] S5000 X 0x00000000#32 reduces_S5000x256_S5000 hφ hacc (ix1 r) = ∑ k : Fin 256, X (ix2 r k) := by
  refine (Ideal.multiReduction_add_single X 0x00000000#32 reduces_S5000x256_S5000 hφ hacc (ix1 r)).trans ?_
  exact Finset.sum_congr rfl fun k _ => congrArg X (funext fun a => Fin.ext (by
    match a with
    | ⟨0, _⟩ => rfl
    | ⟨1, _⟩ => rfl))

/-- A [1, 256] row broadcast down a [5000, 256] block reads the row at the column. -/
theorem rowBcast_apply (v : FVec Ideal S1x256 .f32) (r : Fin 5000) (q : Fin 256) :
    broadcastTo S5000x256 v broadcasts_S1x256_S5000x256 (ix2 r q) = v (ix2 (0 : Fin 1) q) :=
  broadcastTo_apply v broadcasts_S1x256_S5000x256 (ix2 r q) (ix2 (0 : Fin 1) q) (fun a => by
    match a with
    | ⟨0, _⟩ => show 0 = if (1 : Nat) = 1 then 0 else _; rw [if_pos rfl]
    | ⟨1, _⟩ => show q.val = if (256 : Nat) = 1 then 0 else q.val; rw [if_neg (by decide)])

/-- A [5000, 1] column broadcast along the lanes of a [5000, 256] block reads the column at the row. -/
theorem colBcast_apply (v : FVec Ideal S5000x1 .f32) (r : Fin 5000) (q : Fin 256) :
    broadcastTo S5000x256 v broadcasts_S5000x1_S5000x256 (ix2 r q) = v (ix2 r (0 : Fin 1)) :=
  broadcastTo_apply v broadcasts_S5000x1_S5000x256 (ix2 r q) (ix2 r (0 : Fin 1)) (fun a => by
    match a with
    | ⟨0, _⟩ => show r.val = if (5000 : Nat) = 1 then 0 else r.val; rw [if_neg (by decide)]
    | ⟨1, _⟩ => show 0 = if (1 : Nat) = 1 then 0 else _; rw [if_pos rfl])

/-- A per-row vector kept as a [5000, 1] column reads the vector at the row. -/
theorem colCast_apply (v : FVec Ideal S5000 .f32) (r : Fin 5000) :
    shapeCast S5000x1 v shapeCasts_S5000_S5000x1 (ix2 r (0 : Fin 1)) = v (ix1 r) :=
  shapeCast_apply v shapeCasts_S5000_S5000x1 (ix2 r (0 : Fin 1)) (ix1 r) (by
    rw [Shape.rowMajor_val_one, Shape.rowMajor_val_two]
    show r.val = r.val * 1 + 0
    omega)

/-! ## The block -/

/-- x(r, q) of the block: the three products of row r with the weight blocks, the bias, the leaky rectifier, and the
    residual E[r, q]. -/
theorem resid_apply (E hd : FVec Ideal S5000x256 .f32) (Wh We : FVec Ideal S256x256 .f32) (tl : FVec Ideal S5000x256 .f32)
    (Wt : FVec Ideal S256x256 .f32) (b : FVec Ideal S1x256 .f32) (r : Fin 5000) (q : Fin 256) :
    k0_pay2 (F := Ideal) E hd Wh We tl Wt b (ix2 r q)
      = resid (fun k => hd (ix2 r k)) (fun k => E (ix2 r k)) (fun k => tl (ix2 r k))
          (fun k j => Wh (ix2 k j)) (fun k j => We (ix2 k j)) (fun k j => Wt (ix2 k j)) (fun j => b (ix2 (0 : Fin 1) j)) q := by
  unfold k0_pay2 resid leaky mix
  simp only [shapeCast_self, addf_apply, select_apply, cmpf_apply, mulf_apply, broadcast_apply, product_apply, rowBcast_apply]
  rfl

/-- What the body leaves at (r, q) of the output block: `edgeRow` of row r of the head, E and tail blocks. -/
theorem block_apply (g : FVec Ideal S1x256 .f32) (E hd : FVec Ideal S5000x256 .f32) (Wh We : FVec Ideal S256x256 .f32)
    (tl : FVec Ideal S5000x256 .f32) (Wt : FVec Ideal S256x256 .f32) (b be : FVec Ideal S1x256 .f32) (r : Fin 5000) (q : Fin 256) :
    Cert.KernelIdeal.Value.E9 (F := Ideal) g E hd Wh We tl Wt b be (ix2 r q)
      = edgeRow (fun k => hd (ix2 r k)) (fun k => E (ix2 r k)) (fun k => tl (ix2 r k))
          (fun k j => Wh (ix2 k j)) (fun k j => We (ix2 k j)) (fun k j => Wt (ix2 k j))
          (fun j => b (ix2 (0 : Fin 1) j)) (fun j => g (ix2 (0 : Fin 1) j)) (fun j => be (ix2 (0 : Fin 1) j)) q := by
  have e0 : Cert.KernelIdeal.Value.ix9_0 (ix2 r q) = ix2 (0 : Fin 1) q :=
    funext fun a => Fin.ext (by match a with | ⟨0, _⟩ => rfl | ⟨1, _⟩ => rfl)
  have e1 : Cert.KernelIdeal.Value.ix9_1 (ix2 r q) = ix2 r q :=
    funext fun a => Fin.ext (by match a with | ⟨0, _⟩ => rfl | ⟨1, _⟩ => rfl)
  have e2 : Cert.KernelIdeal.Value.ix9_2 (ix2 r q) = ix1 r :=
    funext fun a => Fin.ext (by match a with | ⟨0, _⟩ => rfl)
  have e3 : Cert.KernelIdeal.Value.ix9_3 (ix2 r q) = ix1 r :=
    funext fun a => Fin.ext (by match a with | ⟨0, _⟩ => rfl)
  have e4 : Cert.KernelIdeal.Value.ix9_4 (ix2 r q) = ix2 r (0 : Fin 1) :=
    funext fun a => Fin.ext (by match a with | ⟨0, _⟩ => rfl | ⟨1, _⟩ => rfl)
  have e5 : Cert.KernelIdeal.Value.ix9_5 (ix2 r q) = ix2 (0 : Fin 1) q :=
    funext fun a => Fin.ext (by match a with | ⟨0, _⟩ => rfl | ⟨1, _⟩ => rfl)
  unfold edgeRow normRow rowVar rowMean
  show FloatOps.addf (FloatOps.mulf (FloatOps.mulf (g (Cert.KernelIdeal.Value.ix9_0 (ix2 r q))) _) _) (be (Cert.KernelIdeal.Value.ix9_5 (ix2 r q))) = _
  rw [e0, e1, e2, e3, e4, e5]
  -- the two sums along the lanes at row r: the mean's, and the variance's over the squared deviations
  rw [laneSum_apply (k0_pay2 (F := Ideal) E hd Wh We tl Wt b), laneSum_apply]
  simp only [mulf_apply, subf_apply, colBcast_apply, divf_apply, colCast_apply, broadcast_apply]
  -- the mean again, inside each squared deviation
  rw [laneSum_apply (k0_pay2 (F := Ideal) E hd Wh We tl Wt b)]
  simp only [resid_apply, k0_pay5, broadcast_apply, Ideal.addf_def, Ideal.mulf_def, Ideal.subf_def, Ideal.divf_def, Ideal.rsqrt_def]
  rfl

end Cert.KernelIdeal.RowValue

end
-- ==== Proof.KernelArray.lean ====
/-
  FROM BLOCKS TO THE ARRAY.

  The kernel's grid has 100 points; point t reads rows [5000·t, 5000·t + 5000) of the gathered head rows, the gathered
  tail rows and E, reads the three weight blocks and the bias, scale and shift rows whole, and writes the same rows of
  the result. What it writes at (r, q) of its block is `edgeRow` of row r of its three row blocks, and row r of a row
  block at point t is row 5000·t + r of the array it is cut from; so the block written is the block of `ofRows` of the
  whole arrays. The 100 row blocks tile the 500000 rows (row p lies in block p / 5000), so the result array ends as
  `ofRows` of the arrays the region was handed.
-/
import proofs.«407152_j32976758898975_3_alg».proof.Proof.KernelRow
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.ValueIdx Cert.EdgeUpdate Cert.KernelIdeal.RowValue
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the three row windows move with the output window along the rows and stay at
    column block 0; the weight and vector windows stay at block (0, 0); the output's row block is below 100. -/
theorem idx_facts : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = win0_9.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (1 : Fin 2) = 0 ∧ win0_9.index t (0 : Fin 2) < 100 :=
  (by decide +kernel : ∀ t : Fin grid0.N, _)

/-- The output's row block at point t is t. -/
theorem idx_row : ∀ t : Fin cfg0.N, win0_9.index t (0 : Fin 2) = t.val :=
  (by decide +kernel : ∀ t : Fin grid0.N, _)

/-! ## What each input block reads

  Stated for ANY contents `A` of the core's buffers in place of the contents the region finds: a block read is the
  array read at the block's offset plus the coordinate inside the block, whatever the array holds. -/

section Blocks

variable (c : Dev nD) (A : (b : Ref sig .tc) → Buf (Elt Ideal) ((c : Thread nD τ).loc b))

/-- Row r of the head block at point t is row 5000·(the point's row block) + r of the array it is cut from. -/
theorem headBlk (t : Fin cfg0.N) (r : Fin 5000) (k : Fin 256) (p : Fin 500000)
    (hp : p.val = win0_9.index t (0 : Fin 2) * 5000 + r.val) :
    (((cfg0.win 0).blk t).view.read (Elt Ideal) (A (Pipeline.arrRef spec0 0)) : S5000x256.Idx → EReal) (ix2 r k)
      = (A main_v6 : S500000x256.Idx → EReal) (ix2 p k) := by
  obtain ⟨e0, e1, e2, e3, e4, e5, -⟩ := idx_facts t
  rw [View.read_apply]
  show A main_v6 _ = A main_v6 _
  congr 1
  funext a
  apply Fin.ext
  match a with
  | ⟨0, _⟩ => show win0_0.index t (0 : Fin 2) * 5000 + 1 * r.val = p.val; omega
  | ⟨1, _⟩ => show win0_0.index t (1 : Fin 2) * 256 + 1 * k.val = k.val; omega

/-- Row r of the tail block at point t is row 5000·(the point's row block) + r of the array it is cut from. -/
theorem tailBlk (t : Fin cfg0.N) (r : Fin 5000) (k : Fin 256) (p : Fin 500000)
    (hp : p.val = win0_9.index t (0 : Fin 2) * 5000 + r.val) :
    (((cfg0.win 1).blk t).view.read (Elt Ideal) (A (Pipeline.arrRef spec0 1)) : S5000x256.Idx → EReal) (ix2 r k)
      = (A main_v7 : S500000x256.Idx → EReal) (ix2 p k) := by
  obtain ⟨e0, e1, e2, e3, e4, e5, -⟩ := idx_facts t
  rw [View.read_apply]
  show A main_v7 _ = A main_v7 _
  congr 1
  funext a
  apply Fin.ext
  match a with
  | ⟨0, _⟩ => show win0_1.index t (0 : Fin 2) * 5000 + 1 * r.val = p.val; omega
  | ⟨1, _⟩ => show win0_1.index t (1 : Fin 2) * 256 + 1 * k.val = k.val; omega

/-- Row r of the edge feature block at point t is row 5000·(the point's row block) + r of the array it is cut from. -/
theorem edgeBlk (t : Fin cfg0.N) (r : Fin 5000) (k : Fin 256) (p : Fin 500000)
    (hp : p.val = win0_9.index t (0 : Fin 2) * 5000 + r.val) :
    (((cfg0.win 2).blk t).view.read (Elt Ideal) (A (Pipeline.arrRef spec0 2)) : S5000x256.Idx → EReal) (ix2 r k)
      = (A main_arg1 : S500000x256.Idx → EReal) (ix2 p k) := by
  obtain ⟨e0, e1, e2, e3, e4, e5, -⟩ := idx_facts t
  rw [View.read_apply]
  show A main_arg1 _ = A main_arg1 _
  congr 1
  funext a
  apply Fin.ext
  match a with
  | ⟨0, _⟩ => show win0_2.index t (0 : Fin 2) * 5000 + 1 * r.val = p.val; omega
  | ⟨1, _⟩ => show win0_2.index t (1 : Fin 2) * 256 + 1 * k.val = k.val; omega

/-- The head weight block is read whole at every point. -/
theorem whBlk (t : Fin cfg0.N) (k j : Fin 256) :
    (((cfg0.win 3).blk t).view.read (Elt Ideal) (A (Pipeline.arrRef spec0 3)) : S256x256.Idx → EReal) (ix2 k j)
      = (A main_v8 : S256x256.Idx → EReal) (ix2 k j) := by
  obtain ⟨-, -, -, -, -, -, e6, e7, e8, e9, e10, e11, -⟩ := idx_facts t
  rw [View.read_apply]
  show A main_v8 _ = A main_v8 _
  congr 1
  funext a
  apply Fin.ext
  match a with
  | ⟨0, _⟩ => show win0_3.index t (0 : Fin 2) * 256 + 1 * k.val = k.val; omega
  | ⟨1, _⟩ => show win0_3.index t (1 : Fin 2) * 256 + 1 * j.val = j.val; omega

/-- The edge weight block is read whole at every point. -/
theorem weBlk (t : Fin cfg0.N) (k j : Fin 256) :
    (((cfg0.win 4).blk t).view.read (Elt Ideal) (A (Pipeline.arrRef spec0 4)) : S256x256.Idx → EReal) (ix2 k j)
      = (A main_v9 : S256x256.Idx → EReal) (ix2 k j) := by
  obtain ⟨-, -, -, -, -, -, e6, e7, e8, e9, e10, e11, -⟩ := idx_facts t
  rw [View.read_apply]
  show A main_v9 _ = A main_v9 _
  congr 1
  funext a
  apply Fin.ext
  match a with
  | ⟨0, _⟩ => show win0_4.index t (0 : Fin 2) * 256 + 1 * k.val = k.val; omega
  | ⟨1, _⟩ => show win0_4.index t (1 : Fin 2) * 256 + 1 * j.val = j.val; omega

/-- The tail weight block is read whole at every point. -/
theorem wtBlk (t : Fin cfg0.N) (k j : Fin 256) :
    (((cfg0.win 5).blk t).view.read (Elt Ideal) (A (Pipeline.arrRef spec0 5)) : S256x256.Idx → EReal) (ix2 k j)
      = (A main_v10 : S256x256.Idx → EReal) (ix2 k j) := by
  obtain ⟨-, -, -, -, -, -, e6, e7, e8, e9, e10, e11, -⟩ := idx_facts t
  rw [View.read_apply]
  show A main_v10 _ = A main_v10 _
  congr 1
  funext a
  apply Fin.ext
  match a with
  | ⟨0, _⟩ => show win0_5.index t (0 : Fin 2) * 256 + 1 * k.val = k.val; omega
  | ⟨1, _⟩ => show win0_5.index t (1 : Fin 2) * 256 + 1 * j.val = j.val; omega

/-- The bias row is read whole at every point. -/
theorem biasBlk (t : Fin cfg0.N) (j : Fin 256) :
    (((cfg0.win 6).blk t).view.read (Elt Ideal) (A (Pipeline.arrRef spec0 6)) : S1x256.Idx → EReal) (ix2 (0 : Fin 1) j)
      = (A main_v11 : S1x256.Idx → EReal) (ix2 (0 : Fin 1) j) := by
  obtain ⟨-, -, -, -, -, -, -, -, -, -, -, -, e12, e13, e14, e15, e16, e17, -⟩ := idx_facts t
  rw [View.read_apply]
  show A main_v11 _ = A main_v11 _
  congr 1
  funext a
  apply Fin.ext
  match a with
  | ⟨0, _⟩ => show win0_6.index t (0 : Fin 2) * 1 + 1 * 0 = 0; omega
  | ⟨1, _⟩ => show win0_6.index t (1 : Fin 2) * 256 + 1 * j.val = j.val; omega

/-- The scale row is read whole at every point. -/
theorem scaleBlk (t : Fin cfg0.N) (j : Fin 256) :
    (((cfg0.win 7).blk t).view.read (Elt Ideal) (A (Pipeline.arrRef spec0 7)) : S1x256.Idx → EReal) (ix2 (0 : Fin 1) j)
      = (A main_v12 : S1x256.Idx → EReal) (ix2 (0 : Fin 1) j) := by
  obtain ⟨-, -, -, -, -, -, -, -, -, -, -, -, e12, e13, e14, e15, e16, e17, -⟩ := idx_facts t
  rw [View.read_apply]
  show A main_v12 _ = A main_v12 _
  congr 1
  funext a
  apply Fin.ext
  match a with
  | ⟨0, _⟩ => show win0_7.index t (0 : Fin 2) * 1 + 1 * 0 = 0; omega
  | ⟨1, _⟩ => show win0_7.index t (1 : Fin 2) * 256 + 1 * j.val = j.val; omega

/-- The shift row is read whole at every point. -/
theorem shiftBlk (t : Fin cfg0.N) (j : Fin 256) :
    (((cfg0.win 8).blk t).view.read (Elt Ideal) (A (Pipeline.arrRef spec0 8)) : S1x256.Idx → EReal) (ix2 (0 : Fin 1) j)
      = (A main_v13 : S1x256.Idx → EReal) (ix2 (0 : Fin 1) j) := by
  obtain ⟨-, -, -, -, -, -, -, -, -, -, -, -, e12, e13, e14, e15, e16, e17, -⟩ := idx_facts t
  rw [View.read_apply]
  show A main_v13 _ = A main_v13 _
  congr 1
  funext a
  apply Fin.ext
  match a with
  | ⟨0, _⟩ => show win0_8.index t (0 : Fin 2) * 1 + 1 * 0 = 0; omega
  | ⟨1, _⟩ => show win0_8.index t (1 : Fin 2) * 256 + 1 * j.val = j.val; omega

/-- WHAT POINT t LEAVES AT (r, q) of the output block: `ofRows` of the whole arrays at row 5000·(the point's row block) + r. -/
theorem point_eq (t : Fin cfg0.N) (r : Fin 5000) (q : Fin 256) (p : Fin 500000)
    (hp : p.val = win0_9.index t (0 : Fin 2) * 5000 + r.val) :
    out0_9 (((cfg0.win 0).blk t).view.read (Elt Ideal) (A (Pipeline.arrRef spec0 0))) (((cfg0.win 1).blk t).view.read (Elt Ideal) (A (Pipeline.arrRef spec0 1))) (((cfg0.win 2).blk t).view.read (Elt Ideal) (A (Pipeline.arrRef spec0 2)))
        (((cfg0.win 3).blk t).view.read (Elt Ideal) (A (Pipeline.arrRef spec0 3))) (((cfg0.win 4).blk t).view.read (Elt Ideal) (A (Pipeline.arrRef spec0 4))) (((cfg0.win 5).blk t).view.read (Elt Ideal) (A (Pipeline.arrRef spec0 5)))
        (((cfg0.win 6).blk t).view.read (Elt Ideal) (A (Pipeline.arrRef spec0 6))) (((cfg0.win 7).blk t).view.read (Elt Ideal) (A (Pipeline.arrRef spec0 7))) (((cfg0.win 8).blk t).view.read (Elt Ideal) (A (Pipeline.arrRef spec0 8))) (ix2 r q)
      = ofRows (A main_v6) (A main_v7) (A main_arg1) (A main_v8) (A main_v9) (A main_v10) (A main_v11) (A main_v12) (A main_v13) (ix2 p q) := by
  unfold out0_9
  rw [Cert.KernelIdeal.Value.canon9_eq]
  simp only [View.ld_unit_zero (S := S5000x256) hz, View.ld_unit_zero (S := S256x256) hz, View.ld_unit_zero (S := S1x256) hz]
  rw [block_apply]
  show edgeRow _ _ _ _ _ _ _ _ _ q
    = edgeRow (fun k => (A main_v6 : S500000x256.Idx → EReal) (ix2 p k)) (fun k => (A main_arg1 : S500000x256.Idx → EReal) (ix2 p k))
        (fun k => (A main_v7 : S500000x256.Idx → EReal) (ix2 p k))
        (fun k j => (A main_v8 : S256x256.Idx → EReal) (ix2 k j)) (fun k j => (A main_v9 : S256x256.Idx → EReal) (ix2 k j))
        (fun k j => (A main_v10 : S256x256.Idx → EReal) (ix2 k j))
        (fun j => (A main_v11 : S1x256.Idx → EReal) (ix2 (0 : Fin 1) j)) (fun j => (A main_v12 : S1x256.Idx → EReal) (ix2 (0 : Fin 1) j))
        (fun j => (A main_v13 : S1x256.Idx → EReal) (ix2 (0 : Fin 1) j)) q
  congr 1
  · funext k; exact headBlk c A t r k p hp
  · funext k; exact edgeBlk c A t r k p hp
  · funext k; exact tailBlk c A t r k p hp
  · funext k j; exact whBlk c A t k j
  · funext k j; exact weBlk c A t k j
  · funext k j; exact wtBlk c A t k j
  · funext j; exact biasBlk c A t j
  · funext j; exact scaleBlk c A t j
  · funext j; exact shiftBlk c A t j

end Blocks

/-! ## The array -/

/-- `ofRows` of the arrays the region is handed: the gathered head and tail rows, E, the three weight blocks, and the
    bias, scale and shift rows. -/
def handed (c : Dev nD) : S500000x256.Idx → EReal :=
  ofRows (V m c main_v6) (V m c main_v7) (V m c main_arg1) (V m c main_v8) (V m c main_v9) (V m c main_v10)
    (V m c main_v11) (V m c main_v12) (V m c main_v13)

/-- WHAT POINT t WRITES BACK is block t of `handed`. -/
theorem flushed_eq (c : Dev nD) (t : Fin cfg0.N) :
    (dats m 0 c).flushed 9 t = ((cfg0.win 9).blk t).view.read (Elt Ideal) (handed m c) := by
  rw [Cert.KernelIdeal.Value.flushed9]
  obtain ⟨-, -, -, -, -, -, -, -, -, -, -, -, -, -, -, -, -, -, e18, e19⟩ := idx_facts t
  funext j
  have hj0 : (j 0).val < 5000 := (j 0).isLt
  have hj1 : (j 1).val < 256 := (j 1).isLt
  -- the index inside the block, and the index of the array under it, by their coordinates
  have hx : (cfg0.win 9).xinj (grid0.coords t) j = ix2 (⟨(j 0).val, hj0⟩ : Fin 5000) (⟨(j 1).val, hj1⟩ : Fin 256) :=
    funext fun a => Fin.ext (by
      match a with
      | ⟨0, _⟩ => rfl
      | ⟨1, _⟩ => rfl)
  have hemb : ((cfg0.win 9).blk t).view.emb j
      = ix2 (⟨win0_9.index t (0 : Fin 2) * 5000 + (j 0).val, by omega⟩ : Fin 500000) (⟨(j 1).val, hj1⟩ : Fin 256) :=
    funext fun a => Fin.ext (by
      match a with
      | ⟨0, _⟩ => show win0_9.index t (0 : Fin 2) * 5000 + 1 * (j 0).val = win0_9.index t (0 : Fin 2) * 5000 + (j 0).val; omega
      | ⟨1, _⟩ => show win0_9.index t (1 : Fin 2) * 256 + 1 * (j 1).val = (j 1).val; omega)
  refine (congrArg (out0_9 (iblk m c 0 t) (iblk m c 1 t) (iblk m c 2 t) (iblk m c 3 t) (iblk m c 4 t) (iblk m c 5 t) (iblk m c 6 t) (iblk m c 7 t) (iblk m c 8 t)) hx).trans ?_
  rw [View.read_apply, hemb]
  show out0_9 (iblk m c 0 t) (iblk m c 1 t) (iblk m c 2 t) (iblk m c 3 t) (iblk m c 4 t) (iblk m c 5 t) (iblk m c 6 t) (iblk m c 7 t) (iblk m c 8 t) (ix2 (⟨(j 0).val, hj0⟩ : Fin 5000) (⟨(j 1).val, hj1⟩ : Fin 256))
    = handed m c (ix2 (⟨win0_9.index t (0 : Fin 2) * 5000 + (j 0).val, by omega⟩ : Fin 500000) (⟨(j 1).val, hj1⟩ : Fin 256))
  unfold iblk handed
  exact point_eq c (V m c) t _ _ _ rfl

/-- An index of the result array is in point t's block iff its row is among the block's 5000 rows (the columns are all
    of them). -/
theorem mem_blk (t : Fin cfg0.N) (i : S500000x256.Idx) :
    i ∈ ((cfg0.win 9).blk t).view.set
      ↔ ∀ a : Fin 2, win0_9.index t a * S5000x256.size a ≤ (i a).val ∧ (i a).val < win0_9.index t a * S5000x256.size a + S5000x256.size a := by
  show i ∈ ((View.whole main_v14).slice (win0_9.rect t)).set ↔ _
  rw [View.set_slice_whole, Rect.mem_set_unit]
  exact Iff.rfl

/-- Row p of the result lies in the block of point p / 5000: the 100 row blocks tile the 500000 rows. -/
theorem covered (i : S500000x256.Idx) :
    ∃ t : Fin cfg0.N, (cfg0.win 9).flush t = true ∧ i ∈ ((cfg0.win 9).blk t).view.set := by
  have hi0 : (i 0).val < 500000 := (i 0).isLt
  have hi1 : (i 1).val < 256 := (i 1).isLt
  have hN : cfg0.N = 100 := N_0
  let t : Fin cfg0.N := ⟨(i 0).val / 5000, by omega⟩
  have ht : win0_9.index t (0 : Fin 2) = (i 0).val / 5000 := idx_row t
  obtain ⟨-, -, -, -, -, -, -, -, -, -, -, -, -, -, -, -, -, -, e18, -⟩ := idx_facts t
  refine ⟨t, flush0_9 t, ?_⟩
  rw [mem_blk]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 256 ≤ (i 1).val ∧ (i 1).val < win0_9.index t (1 : Fin 2) * 256 + 256; omega

/-- THE RESULT ARRAY after the run is `handed`. -/
theorem final (c : Dev nD) : (dats m 0 c).arrAt 9 cfg0.N = handed m c :=
  (dats m 0 c).arrAt_eq_of_cover 9 (handed m c) (fun t _ => flushed_eq m c t) (covered)

end Cert.KernelIdeal.ArrayValue

end
-- ==== Proof.KernelHost.lean ====
/-
  WHAT THE REGION IS HANDED. Before its one region the program slices the two columns of the index pairs ht : [500000, 2],
  lays them end to end as 1000000 index words, and takes the rows of the node table H : [100000, 256] at those words
  in numpy's reading: 100000 is added to a negative word, the result is used as a clamped start index of a row gather,
  and a row whose word falls outside [0, 99999] after the wrap is replaced by a fill value. The head features are rows
  [0, 500000) of the taken rows and the tail features rows [500000, 1000000); the three weight blocks are the row
  blocks 0, 256 and 512 of the stacked weight; bias, scale and shift are the 256-vectors kept as [1, 256] rows.

  Under the range -100000 ≤ word < 100000 of every index word (`InRange`, which the precondition's last test states:
  `inRange_of_pre`) the wrapped word lies in [0, 99999] (`wrapWord_range`), so the in-bounds mask is set everywhere
  (`inBounds_one`) and the fill never shows: element (p, k) of the head features is H at (nodeRow of the head word of
  pair p, k), and likewise for the tail (`head_apply`, `tail_apply`). The other six reads need no hypothesis.

  The take is written once as pure functions (`words`, `wrapped`, `column`, `inBounds`, `pick`, `taken`) and the
  operations are read in stretches, each a function of the buffers the previous stretch left, so that a value several
  operations share is a buffer read and not a repeated term.
-/
import proofs.«407152_j32976758898975_3_alg».proof.Defs
import proofs.«407152_j32976758898975_3_alg».proof.Proof.Gen.KernelIdeal.Frame
import proofs.«407152_j32976758898975_3_alg».proof.Proof.Gen.Pre_finite_inputs
import proofs.«407152_j32976758898975_3_alg».proof.Proof.EdgeSpec
import proofs.«407152_j32976758898975_3_alg».proof.Proof.LibRowGather
import Idealize.ShloMosaic.Lib.Pipeline.Value
import Idealize.ShloMosaic.Lib.ReduceAll

noncomputable section
namespace Cert.KernelIdeal.HostValue
open Cert.KernelIdeal Cert.KernelIdeal.Gen Idealize.ShloMosaic Idealize.ShloMosaic.TcCoe Idealize.SL.Sem
open Idealize.ShloMosaic.ValueIdx Cert.EdgeUpdate
open Idealize.ShloMosaic.Tactic

variable (m : (ℓ : Loc nD τ sig) → Buf (Elt Ideal) ℓ)

/-- Every word of the index pairs names a row of the 100000-row node table in numpy's reading: -100000 ≤ word < 100000. -/
def InRange (c : Dev nD) : Prop :=
  ∀ i : S500000x2.Idx, -100000 ≤ ((m ((c : Thread nD τ).loc main_arg2) : IVec S500000x2 32) i).toInt
    ∧ ((m ((c : Thread nD τ).loc main_arg2) : IVec S500000x2 32) i).toInt < 100000

/-- The signed reading of the two constant words the range test compares against. -/
theorem toInt_lo : (4294867296#32 : BitVec 32).toInt = -100000 := by decide
theorem toInt_hi : (100000#32 : BitVec 32).toInt = 100000 := by decide

/-- ONE INDEX WORD. A word v with -100000 ≤ v < 100000 (signed): where v is negative the wrap adds 100000, which lands in
    [0, 99999] without leaving 32 bits; where v is not negative it is kept and is already below 100000. -/
theorem wrapWord_range (v : BitVec 32) (h0 : -100000 ≤ v.toInt) (h1 : v.toInt < 100000) :
    0 ≤ (wrapWord v).toInt ∧ (wrapWord v).toInt ≤ 99999 := by
  unfold wrapWord Scalar.select
  by_cases hneg : IntOp.cmpi .slt v 0#32 = 1
  · rw [if_pos hneg]
    have hv : v.toInt < 0 := by
      have := IntOp.cmpi_slt.mp hneg
      rwa [show (0#32 : BitVec 32).toInt = 0 from by decide] at this
    show 0 ≤ (v + 100000#32).toInt ∧ (v + 100000#32).toInt ≤ 99999
    rw [BitVec.toInt_add, toInt_hi]
    have e : (v.toInt + 100000).bmod (2 ^ 32) = v.toInt + 100000 := by
      apply Int.bmod_eq_of_le <;> omega
    rw [e]; omega
  · rw [if_neg hneg]
    have hv : ¬ v.toInt < 0 := by
      intro hlt
      apply hneg
      apply IntOp.cmpi_slt.mpr
      rwa [show (0#32 : BitVec 32).toInt = 0 from by decide]
    omega

/-- A fold by `and` that starts at 1 and meets only 1s ends at 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

instance : Subsingleton Cert.Pre_finite_inputs.S_.Idx := ⟨fun a b => funext fun d => d.elim0⟩

theorem inRange_of_pre (h : Cert.Pre_KernelIdeal (hPre_finite_inputs := Cert.Pre_finite_inputs.Gen.facts) m) (c : Dev nD) :
    InRange m c := by
  intro i
  -- the precondition's word on this device is the `and` of seven tests, the last the range test of the index pairs
  have e := congrFun (h c) ValueIdx.ix0
  dsimp only [Cert.Pre_finite_inputs.fn, Cert.Pre_finite_inputs.fn_part1, Cert.Pre_finite_inputs.fn_part2] at e
  have e2 := (IntOp.andi_eq_one.mp e).2
  -- the range test is an `all` over the [500000, 2] mask: every element of the mask is 1
  have e3 := Host.reduce_andi_all _ _ _ _ _ e2 i
  obtain ⟨hge, hlt⟩ := IntOp.andi_eq_one.mp e3
  have hge' := IntOp.cmpi_sge.mp hge
  have hlt' := IntOp.cmpi_slt.mp hlt
  exact ⟨by rw [← toInt_lo]; exact hge', by rw [← toInt_hi]; exact hlt'⟩

/-! ## The take, as a function of the node table and the index pairs

What the host operations before the region compute from H and ht, written once as pure functions, stage by stage, so
that the two windows' arrays are slices of one array. -/

/-- The 1000000 index words: the head column of the pairs, then the tail column. -/
def words (ht : IVec S500000x2 32) : IVec S1000000 32 :=
  concatenate S1000000 0
    [⟨S500000, shapeCast S500000 (extractStridedSlice S500000x1 ![0, 0] ht slices_S500000x2_S500000x1_0_0) shapeCasts_S500000x1_S500000⟩,
     ⟨S500000, shapeCast S500000 (extractStridedSlice S500000x1 ![0, 1] ht slices_S500000x2_S500000x1_0_1) shapeCasts_S500000x1_S500000⟩]
    concatenates_S500000_S500000_S1000000_d0

/-- Each word with 100000 added where it is negative. -/
def wrapped (w : IVec S1000000 32) : IVec S1000000 32 :=
  select (cmpi .slt w (broadcastInDim S1000000 ![] bcast_S_S1000000 (constantI S_ 32 0#32)))
    (addi w (broadcastInDim S1000000 ![] bcast_S_S1000000 (constantI S_ 32 100000#32))) w

/-- The wrapped words as the [1000000, 1] column of start indices the gather takes. -/
def column (w : IVec S1000000 32) : IVec S1000000x1 32 :=
  broadcastInDim S1000000x1 ![0] bcast_S1000000_S1000000x1_0 (wrapped w)

/-- The in-bounds test 0 ≤ start ≤ 99999 of each start index, before it is reduced along the column's unit axis. -/
def boundsCol (col : IVec S1000000x1 32) : IVec S1000000x1 1 :=
  andi (cmpi .sge col (broadcastInDim S1000000x1 ![] bcast_S_S1000000x1 (constantI S_ 32 0#32)))
    (cmpi .sle col (broadcastInDim S1000000x1 ![0, 1] bcast_S1x1_S1000000x1_0_1
      (broadcastInDim S1x1 ![1] bcast_S1_S1x1_1 (constantI S1 32 99999#32))))

/-- The in-bounds mask, one bit per start index. -/
def inBounds (col : IVec S1000000x1 32) : IVec S1000000 1 :=
  Host.reduce IntOp.andi (boundsCol col) (constantI S_ 1 1#1) reducesTo_S1000000x1_S1000000_d1 h_S_

/-- The rows picked at a column of start indices under a mask: the gathered row where the mask is set, the fill word's
    value elsewhere. -/
def pick (H : S100000x256.Idx → EReal) (col : IVec S1000000x1 32) (mask : IVec S1000000 1) : S1000000x256.Idx → EReal :=
  select (broadcastInDim S1000000x256 ![0] bcast_S1000000_S1000000x256_0 mask)
    (Host.gather gather_S100000x256_S1000000x1_S1000000x256_1_0_n_n_0_1_1256 H col)
    (broadcastInDim S1000000x256 ![] bcast_S_S1000000x256 (constant (F := Ideal) S_ .f32 0x7FC00000#32))

/-- The taken rows of the node table at the index words. -/
def taken (H : S100000x256.Idx → EReal) (w : IVec S1000000 32) : S1000000x256.Idx → EReal :=
  pick H (column w) (inBounds (column w))

/-- A word of the head half: position r below 500000 holds the head word of pair r. -/
theorem words_head (ht : IVec S500000x2 32) (r : Fin 1000000) (p : Fin 500000) (e : r.val = p.val) :
    words ht (ix1 r) = ht (ix2 p (0 : Fin 2)) := by
  unfold words
  rw [concatenate_pair_apply_left (t := S1000000) (s₁ := S500000) (s₂ := S500000) (0 : Fin 1) _ _
    concatenates_S500000_S500000_S1000000_d0 (ix1 r) rfl (ix1 p) (fun b => match b with | ⟨0, _⟩ => e.symm)]
  rw [shapeCast_apply _ shapeCasts_S500000x1_S500000 (ix1 p) (ix2 p (0 : Fin 1))
    (by rewrite [Shape.rowMajor_val_two, Shape.rowMajor_val_one]; show p.val * 1 + 0 = p.val; omega)]
  exact extractStridedSlice_apply ![0, 0] ht slices_S500000x2_S500000x1_0_0 (ix2 p (0 : Fin 1)) (ix2 p (0 : Fin 2))
    (fun a => match a with
      | ⟨0, _⟩ => by show p.val = 0 + p.val; omega
      | ⟨1, _⟩ => by show (0 : Nat) = 0 + 0; rfl)

/-- A word of the tail half: position 500000 + p holds the tail word of pair p. -/
theorem words_tail (ht : IVec S500000x2 32) (r : Fin 1000000) (p : Fin 500000) (e : r.val = 500000 + p.val) :
    words ht (ix1 r) = ht (ix2 p (1 : Fin 2)) := by
  unfold words
  rw [concatenate_pair_apply_right (t := S1000000) (s₁ := S500000) (s₂ := S500000) (0 : Fin 1) _ _
    concatenates_S500000_S500000_S1000000_d0 (ix1 r) rfl rfl (ix1 p)
    (fun b hb => absurd (Fin.ext (by have h1 : b.val < 1 := b.isLt; show b.val = 0; omega)) hb)
    (by show p.val + 500000 = r.val; omega)]
  rw [shapeCast_apply _ shapeCasts_S500000x1_S500000 (ix1 p) (ix2 p (0 : Fin 1))
    (by rewrite [Shape.rowMajor_val_two, Shape.rowMajor_val_one]; show p.val * 1 + 0 = p.val; omega)]
  exact extractStridedSlice_apply ![0, 1] ht slices_S500000x2_S500000x1_0_1 (ix2 p (0 : Fin 1)) (ix2 p (1 : Fin 2))
    (fun a => match a with
      | ⟨0, _⟩ => by show p.val = 0 + p.val; omega
      | ⟨1, _⟩ => by show (1 : Nat) = 1 + 0; rfl)

/-- Every one of the 1000000 words is a word of the pairs, so a range that holds of the pairs holds of the words. -/
theorem words_range (ht : IVec S500000x2 32) (hr : ∀ i, -100000 ≤ (ht i).toInt ∧ (ht i).toInt < 100000) (r : Fin 1000000) :
    -100000 ≤ (words ht (ix1 r)).toInt ∧ (words ht (ix1 r)).toInt < 100000 := by
  by_cases h : r.val < 500000
  · rw [words_head ht r ⟨r.val, h⟩ rfl]; exact hr _
  · have hlt : r.val - 500000 < 500000 := by have := r.isLt; omega
    rw [words_tail ht r ⟨r.val - 500000, hlt⟩ (by show r.val = 500000 + (r.val - 500000); omega)]; exact hr _

/-- The wrapped word at a position is the wrap of the word there. -/
theorem wrapped_apply (w : IVec S1000000 32) (r : Fin 1000000) : wrapped w (ix1 r) = wrapWord (w (ix1 r)) := rfl

/-- The start index of row r is the wrapped word r. -/
theorem column_apply (w : IVec S1000000 32) (i : S1000000x1.Idx) : column w i = wrapWord (w (ix1 (i 0))) := by
  unfold column
  rw [broadcastInDim_apply _ bcast_S1000000_S1000000x1_0 (wrapped w) i (ix1 (i 0)) (fun a => match a with
    | ⟨0, _⟩ => by show (i 0).val = if (1000000 : Nat) = 1 then 0 else (i 0).val; rw [if_neg (by decide)])]
  rfl

/-- A column whose every start index lies in [0, 99999] passes the in-bounds test everywhere … -/
theorem boundsCol_one (col : IVec S1000000x1 32) (hcol : ∀ i, 0 ≤ (col i).toInt ∧ (col i).toInt ≤ 99999)
    (i : S1000000x1.Idx) : boundsCol col i = 1#1 := by
  show IntOp.andi (IntOp.cmpi .sge (col i) 0#32) (IntOp.cmpi .sle (col i) 99999#32) = 1#1
  refine IntOp.andi_eq_one.mpr ⟨IntOp.cmpi_sge.mpr ?_, IntOp.cmpi_sle.mpr ?_⟩
  · rw [show (0#32 : BitVec 32).toInt = 0 from by decide]; exact (hcol i).1
  · rw [show (99999#32 : BitVec 32).toInt = 99999 from by decide]; exact (hcol i).2

/-- … so its mask, the `and` along the column's unit axis from 1, is set everywhere. -/
theorem inBounds_one (col : IVec S1000000x1 32) (hcol : ∀ i, 0 ≤ (col i).toInt ∧ (col i).toInt ≤ 99999)
    (j : S1000000.Idx) : inBounds col j = 1#1 := by
  unfold inBounds
  rw [Host.reduce_eq_foldl]
  exact foldl_andi_one _ _ fun n _ => boundsCol_one col hcol n

/-- With every word in range every start index of the column lies in [0, 99999]. -/
theorem column_range (w : IVec S1000000 32) (hw : ∀ r, -100000 ≤ (w (ix1 r)).toInt ∧ (w (ix1 r)).toInt < 100000)
    (i : S1000000x1.Idx) : 0 ≤ (column w i).toInt ∧ (column w i).toInt ≤ 99999 := by
  rw [column_apply]; exact wrapWord_range _ (hw (i 0)).1 (hw (i 0)).2

/-- THE TAKE AT AN ELEMENT, all words in range: the mask is set, so the element is the gathered one, and the gather's
    clamped signed start index is the node row of the word. -/
theorem taken_apply (H : S100000x256.Idx → EReal) (w : IVec S1000000 32)
    (hw : ∀ r, -100000 ≤ (w (ix1 r)).toInt ∧ (w (ix1 r)).toInt < 100000) (r : Fin 1000000) (k : Fin 256) :
    taken H w (ix2 r k) = H (ix2 (nodeRow (w (ix1 r))) k) := by
  unfold taken pick
  rw [select_apply]
  rw [broadcastInDim_apply _ bcast_S1000000_S1000000x256_0 (inBounds (column w)) (ix2 r k) (ix1 r) (fun a => match a with
    | ⟨0, _⟩ => by show r.val = if (1000000 : Nat) = 1 then 0 else r.val; rw [if_neg (by decide)])]
  rw [inBounds_one (column w) (column_range w hw), select_one]
  show Host.gather (RowGather.rowDims 100000 256 1000000 gather_S100000x256_S1000000x1_S1000000x256_1_0_n_n_0_1_1256_wf)
    H (column w) (ix2 r k) = _
  rw [RowGather.rowGather_apply (by decide)]
  -- the two rows agree as numbers: the start index of row r is the wrapped word r
  refine congrArg (fun row : Fin 100000 => H (ix2 row k)) (Fin.ext ?_)
  show min (column w (ix2 r (0 : Fin 1))).toInt.toNat (100000 - 1) = min (wrapWord (w (ix1 r))).toInt.toNat (100000 - 1)
  rw [column_apply]

/-! ## The host operations before the region, in three stretches -/

/-- After the first stretch (two column slices, two reshapes, one concatenation) the buffer of the index words holds
    `words` of the pairs. -/
theorem words_after (c : Dev nD) :
    StableHlo.after (hostOps0 : List (HloOp τ sig (Elt Ideal))) (fun b => m (c, b)) (Proc.devRef .tc main_v4)
      = words (m ((c : Thread nD τ).loc main_arg2) : IVec S500000x2 32) := by
  simp only [Gen.hostOps0]
  after_results
  rfl

/-- The first stretch does not write the node table. -/
theorem arg0_after (c : Dev nD) :
    StableHlo.after (hostOps0 : List (HloOp τ sig (Elt Ideal))) (fun b => m (c, b)) (Proc.devRef .tc main_arg0)
      = m ((c : Thread nD τ).loc main_arg0) := by
  simp only [Gen.hostOps0]
  after_results

/-! ## The take's operations, in three stretches

The take's 23 operations are read in three stretches over an arbitrary valuation of the buffers, each stretch as a
function of the buffers the one before it left: the words to the column of start indices, the column to the
in-bounds mask, and the node table, the column and the mask to the picked rows. A shared value is then one buffer
read, never a repeated term. -/

/-- Operations 1 to 8: the wrap and the column. -/
abbrev stretchA : List (HloOp τ sig (Elt Ideal)) := (hostOps0_1 : List (HloOp τ sig (Elt Ideal))).take 8
/-- Operations 9 to 18: the two compares, their `and`, and its reduction along the unit axis. -/
abbrev stretchB : List (HloOp τ sig (Elt Ideal)) := ((hostOps0_1 : List (HloOp τ sig (Elt Ideal))).drop 8).take 10
/-- Operations 19 to 23: the gather, the mask and the fill broadcast, the select. -/
abbrev stretchC : List (HloOp τ sig (Elt Ideal)) := ((hostOps0_1 : List (HloOp τ sig (Elt Ideal))).drop 8).drop 10

theorem stretches : (hostOps0_1 : List (HloOp τ sig (Elt Ideal))) = stretchA ++ (stretchB ++ stretchC) := by
  rw [stretchB, stretchC, List.take_append_drop, stretchA, List.take_append_drop]

/-- The first stretch leaves the column of start indices: the wrapped words, broadcast to [1000000, 1]. -/
theorem column_after (W : Valuation τ sig (Elt Ideal)) :
    StableHlo.after stretchA W (Proc.devRef .tc main_call0_v5) = column (W (Proc.devRef .tc main_v4)) := by
  simp only [stretchA, stretchB, stretchC, Gen.hostOps0_1, List.take_succ_cons, List.take_zero, List.drop_succ_cons, List.drop_zero]
  after_results
  simp only [StableHlo.TRef.ofBuf, StableHlo.TRef.toBuf, cast_cast, cast_eq]
  rfl

/-- It does not write the node table. -/
theorem arg0_afterA (W : Valuation τ sig (Elt Ideal)) :
    StableHlo.after stretchA W (Proc.devRef .tc main_arg0) = W (Proc.devRef .tc main_arg0) := by
  simp only [stretchA, stretchB, stretchC, Gen.hostOps0_1, List.take_succ_cons, List.take_zero, List.drop_succ_cons, List.drop_zero]
  after_results

/-- The second stretch leaves the in-bounds mask of the column it finds. -/
theorem mask_after (W : Valuation τ sig (Elt Ideal)) :
    StableHlo.after stretchB W (Proc.devRef .tc main_call0_v12) = inBounds (W (Proc.devRef .tc main_call0_v5)) := by
  simp only [stretchA, stretchB, stretchC, Gen.hostOps0_1, List.take_succ_cons, List.take_zero, List.drop_succ_cons, List.drop_zero]
  after_results
  simp only [StableHlo.TRef.ofBuf, StableHlo.TRef.toBuf, cast_cast, cast_eq]
  rfl

/-- It writes neither the column … -/
theorem column_afterB (W : Valuation τ sig (Elt Ideal)) :
    StableHlo.after stretchB W (Proc.devRef .tc main_call0_v5) = W (Proc.devRef .tc main_call0_v5) := by
  simp only [stretchA, stretchB, stretchC, Gen.hostOps0_1, List.take_succ_cons, List.take_zero, List.drop_succ_cons, List.drop_zero]
  after_results

/-- … nor the node table. -/
theorem arg0_afterB (W : Valuation τ sig (Elt Ideal)) :
    StableHlo.after stretchB W (Proc.devRef .tc main_arg0) = W (Proc.devRef .tc main_arg0) := by
  simp only [stretchA, stretchB, stretchC, Gen.hostOps0_1, List.take_succ_cons, List.take_zero, List.drop_succ_cons, List.drop_zero]
  after_results

/-- The third stretch leaves the rows picked out of the node table at the column under the mask. -/
theorem pick_after (W : Valuation τ sig (Elt Ideal)) :
    StableHlo.after stretchC W (Proc.devRef .tc main_v5)
      = pick (W (Proc.devRef .tc main_arg0)) (W (Proc.devRef .tc main_call0_v5)) (W (Proc.devRef .tc main_call0_v12)) := by
  simp only [stretchA, stretchB, stretchC, Gen.hostOps0_1, List.take_succ_cons, List.take_zero, List.drop_succ_cons, List.drop_zero]
  after_results
  simp only [StableHlo.TRef.ofBuf, StableHlo.TRef.toBuf, cast_cast, cast_eq]
  rfl

/-- THE TAKE: from any valuation, its operations leave `taken` of the node table and the words they find. -/
theorem taken_after (W : Valuation τ sig (Elt Ideal)) :
    StableHlo.after (hostOps0_1 : List (HloOp τ sig (Elt Ideal))) W (Proc.devRef .tc main_v5)
      = taken (W (Proc.devRef .tc main_arg0)) (W (Proc.devRef .tc main_v4)) := by
  rw [show StableHlo.after (hostOps0_1 : List (HloOp τ sig (Elt Ideal))) W
      = StableHlo.after (stretchA ++ (stretchB ++ stretchC)) W from by rw [← stretches],
    StableHlo.after_append, StableHlo.after_append, pick_after, arg0_afterB, column_afterB, mask_after, arg0_afterA, column_after]
  rfl

/-- After the first two stretches the buffer of the taken rows holds `taken` of the node table and the words. -/
theorem taken_rows (c : Dev nD) :
    StableHlo.after ((hostOps0 ++ hostOps0_1 : List (HloOp τ sig (Elt Ideal)))) (fun b => m (c, b)) (Proc.devRef .tc main_v5)
      = taken (m ((c : Thread nD τ).loc main_arg0) : S100000x256.Idx → EReal)
          (words (m ((c : Thread nD τ).loc main_arg2) : IVec S500000x2 32)) := by
  rw [StableHlo.after_append, taken_after, words_after, arg0_after]

/-- The head window's array: rows [0, 500000) of the taken rows. -/
theorem e6 (c : Dev nD) : (V m c main_v6 : S500000x256.Idx → EReal)
      = extractStridedSlice S500000x256 ![0, 0]
          (taken (m ((c : Thread nD τ).loc main_arg0) : S100000x256.Idx → EReal)
            (words (m ((c : Thread nD τ).loc main_arg2) : IVec S500000x2 32)))
          slices_S1000000x256_S500000x256_0_0 := by
  dsimp only [Gen.V]
  rw [show List.flatten [(hostOps0 : List (HloOp τ sig (Elt Ideal))), hostOps0_1, hostOps0_2]
      = (hostOps0 ++ hostOps0_1) ++ hostOps0_2 from by
        simp only [List.flatten_cons, List.flatten_nil, List.append_nil, List.append_assoc],
    StableHlo.after_append, ← taken_rows m c]
  generalize StableHlo.after ((hostOps0 ++ hostOps0_1 : List (HloOp τ sig (Elt Ideal)))) (fun b => m (c, b)) = W
  simp only [Gen.hostOps0_2]
  after_results

/-- The tail window's array: rows [500000, 1000000) of the taken rows. -/
theorem e7 (c : Dev nD) : (V m c main_v7 : S500000x256.Idx → EReal)
      = extractStridedSlice S500000x256 ![500000, 0]
          (taken (m ((c : Thread nD τ).loc main_arg0) : S100000x256.Idx → EReal)
            (words (m ((c : Thread nD τ).loc main_arg2) : IVec S500000x2 32)))
          slices_S1000000x256_S500000x256_500000_0 := by
  dsimp only [Gen.V]
  rw [show List.flatten [(hostOps0 : List (HloOp τ sig (Elt Ideal))), hostOps0_1, hostOps0_2]
      = (hostOps0 ++ hostOps0_1) ++ hostOps0_2 from by
        simp only [List.flatten_cons, List.flatten_nil, List.append_nil, List.append_assoc],
    StableHlo.after_append, ← taken_rows m c]
  generalize StableHlo.after ((hostOps0 ++ hostOps0_1 : List (HloOp τ sig (Elt Ideal)))) (fun b => m (c, b)) = W
  simp only [Gen.hostOps0_2]
  after_results

theorem head_apply (c : Dev nD) (hr : InRange m c) (p : Fin 500000) (k : Fin 256) :
    (V m c main_v6 : S500000x256.Idx → EReal) (ix2 p k)
      = (m ((c : Thread nD τ).loc main_arg0) : S100000x256.Idx → EReal)
          (ix2 (nodeRow ((m ((c : Thread nD τ).loc main_arg2) : IVec S500000x2 32) (ix2 p (0 : Fin 2)))) k) := by
  rw [e6]
  rw [extractStridedSlice_apply ![0, 0] _ slices_S1000000x256_S500000x256_0_0 (ix2 p k)
    (ix2 (⟨p.val, by omega⟩ : Fin 1000000) k) (fun a => match a with
      | ⟨0, _⟩ => by show p.val = 0 + p.val; omega
      | ⟨1, _⟩ => by show k.val = 0 + k.val; omega)]
  rw [taken_apply _ _ (words_range _ hr), words_head _ _ p rfl]

theorem tail_apply (c : Dev nD) (hr : InRange m c) (p : Fin 500000) (k : Fin 256) :
    (V m c main_v7 : S500000x256.Idx → EReal) (ix2 p k)
      = (m ((c : Thread nD τ).loc main_arg0) : S100000x256.Idx → EReal)
          (ix2 (nodeRow ((m ((c : Thread nD τ).loc main_arg2) : IVec S500000x2 32) (ix2 p (1 : Fin 2)))) k) := by
  rw [e7]
  rw [extractStridedSlice_apply ![500000, 0] _ slices_S1000000x256_S500000x256_500000_0 (ix2 p k)
    (ix2 (⟨500000 + p.val, by omega⟩ : Fin 1000000) k) (fun a => match a with
      | ⟨0, _⟩ => by show 500000 + p.val = 500000 + p.val; rfl
      | ⟨1, _⟩ => by show k.val = 0 + k.val; omega)]
  rw [taken_apply _ _ (words_range _ hr), words_tail _ _ p rfl]

/-- A row block of the stacked weight: the slice of 256 rows that starts at row `off` reads row `off + k`. -/
theorem Wh_apply (c : Dev nD) (k j : Fin 256) :
    (V m c main_v8 : S256x256.Idx → EReal) (ix2 k j)
      = (m ((c : Thread nD τ).loc main_arg3) : S768x256.Idx → EReal) (ix2 (⟨k.val, by omega⟩ : Fin 768) j) := by
  have e : (V m c main_v8 : S256x256.Idx → EReal)
      = extractStridedSlice S256x256 ![0, 0] (m ((c : Thread nD τ).loc main_arg3) : S768x256.Idx → EReal)
          slices_S768x256_S256x256_0_0 := by
    dsimp only [Gen.V]
    simp only [Gen.hostOps0, Gen.hostOps0_1, Gen.hostOps0_2, List.flatten_cons, List.flatten_nil, List.append_nil, List.cons_append, List.nil_append]
    after_results
  rw [e]
  exact extractStridedSlice_apply (s := S768x256) (t := S256x256) ![0, 0] _ slices_S768x256_S256x256_0_0 (ix2 k j)
    (ix2 (⟨k.val, by omega⟩ : Fin 768) j) (fun a => match a with
    | ⟨0, _⟩ => by show k.val = 0 + k.val; omega
    | ⟨1, _⟩ => by show j.val = 0 + j.val; omega)

theorem We_apply (c : Dev nD) (k j : Fin 256) :
    (V m c main_v9 : S256x256.Idx → EReal) (ix2 k j)
      = (m ((c : Thread nD τ).loc main_arg3) : S768x256.Idx → EReal) (ix2 (⟨256 + k.val, by omega⟩ : Fin 768) j) := by
  have e : (V m c main_v9 : S256x256.Idx → EReal)
      = extractStridedSlice S256x256 ![256, 0] (m ((c : Thread nD τ).loc main_arg3) : S768x256.Idx → EReal)
          slices_S768x256_S256x256_256_0 := by
    dsimp only [Gen.V]
    simp only [Gen.hostOps0, Gen.hostOps0_1, Gen.hostOps0_2, List.flatten_cons, List.flatten_nil, List.append_nil, List.cons_append, List.nil_append]
    after_results
  rw [e]
  exact extractStridedSlice_apply (s := S768x256) (t := S256x256) ![256, 0] _ slices_S768x256_S256x256_256_0 (ix2 k j)
    (ix2 (⟨256 + k.val, by omega⟩ : Fin 768) j) (fun a => match a with
    | ⟨0, _⟩ => by show 256 + k.val = 256 + k.val; rfl
    | ⟨1, _⟩ => by show j.val = 0 + j.val; omega)

theorem Wt_apply (c : Dev nD) (k j : Fin 256) :
    (V m c main_v10 : S256x256.Idx → EReal) (ix2 k j)
      = (m ((c : Thread nD τ).loc main_arg3) : S768x256.Idx → EReal) (ix2 (⟨512 + k.val, by omega⟩ : Fin 768) j) := by
  have e : (V m c main_v10 : S256x256.Idx → EReal)
      = extractStridedSlice S256x256 ![512, 0] (m ((c : Thread nD τ).loc main_arg3) : S768x256.Idx → EReal)
          slices_S768x256_S256x256_512_0 := by
    dsimp only [Gen.V]
    simp only [Gen.hostOps0, Gen.hostOps0_1, Gen.hostOps0_2, List.flatten_cons, List.flatten_nil, List.append_nil, List.cons_append, List.nil_append]
    after_results
  rw [e]
  exact extractStridedSlice_apply (s := S768x256) (t := S256x256) ![512, 0] _ slices_S768x256_S256x256_512_0 (ix2 k j)
    (ix2 (⟨512 + k.val, by omega⟩ : Fin 768) j) (fun a => match a with
    | ⟨0, _⟩ => by show 512 + k.val = 512 + k.val; rfl
    | ⟨1, _⟩ => by show j.val = 0 + j.val; omega)

/-- A vector of 256 entries kept as a [1, 256] row: entry (0, j) of the row is entry j of the vector, both sitting at
    row-major position j. -/
theorem row_of_vec (x : S256.Idx → EReal) (j : Fin 256) :
    shapeCast S1x256 x shapeCasts_S256_S1x256 (ix2 (0 : Fin 1) j) = x (ix1 j) :=
  shapeCast_apply x shapeCasts_S256_S1x256 (ix2 (0 : Fin 1) j) (ix1 j)
    (by rewrite [Shape.rowMajor_val_two, Shape.rowMajor_val_one]; show j.val = 0 * 256 + j.val; omega)

theorem b_apply (c : Dev nD) (j : Fin 256) :
    (V m c main_v11 : S1x256.Idx → EReal) (ix2 (0 : Fin 1) j) = (m ((c : Thread nD τ).loc main_arg4) : S256.Idx → EReal) (ix1 j) := by
  have e : (V m c main_v11 : S1x256.Idx → EReal)
      = shapeCast S1x256 (m ((c : Thread nD τ).loc main_arg4) : S256.Idx → EReal) shapeCasts_S256_S1x256 := by
    dsimp only [Gen.V]
    simp only [Gen.hostOps0, Gen.hostOps0_1, Gen.hostOps0_2, List.flatten_cons, List.flatten_nil, List.append_nil, List.cons_append, List.nil_append]
    after_results
    rfl
  rw [e, row_of_vec]

theorem g_apply (c : Dev nD) (j : Fin 256) :
    (V m c main_v12 : S1x256.Idx → EReal) (ix2 (0 : Fin 1) j) = (m ((c : Thread nD τ).loc main_arg5) : S256.Idx → EReal) (ix1 j) := by
  have e : (V m c main_v12 : S1x256.Idx → EReal)
      = shapeCast S1x256 (m ((c : Thread nD τ).loc main_arg5) : S256.Idx → EReal) shapeCasts_S256_S1x256 := by
    dsimp only [Gen.V]
    simp only [Gen.hostOps0, Gen.hostOps0_1, Gen.hostOps0_2, List.flatten_cons, List.flatten_nil, List.append_nil, List.cons_append, List.nil_append]
    after_results
    rfl
  rw [e, row_of_vec]

theorem be_apply (c : Dev nD) (j : Fin 256) :
    (V m c main_v13 : S1x256.Idx → EReal) (ix2 (0 : Fin 1) j) = (m ((c : Thread nD τ).loc main_arg6) : S256.Idx → EReal) (ix1 j) := by
  have e : (V m c main_v13 : S1x256.Idx → EReal)
      = shapeCast S1x256 (m ((c : Thread nD τ).loc main_arg6) : S256.Idx → EReal) shapeCasts_S256_S1x256 := by
    dsimp only [Gen.V]
    simp only [Gen.hostOps0, Gen.hostOps0_1, Gen.hostOps0_2, List.flatten_cons, List.flatten_nil, List.append_nil, List.cons_append, List.nil_append]
    after_results
    rfl
  rw [e, row_of_vec]

end Cert.KernelIdeal.HostValue
end
-- ==== Proof.RefValue.lean ====
/-
  THE REFERENCE COMPUTES THE EDGE UPDATE OF THE SPECIFICATION.

  The reference program is read one operation at a time (the generated module Read gives each operation's value and,
  for all but the two gathers, its element at an index). Here those readings are composed, at an explicit edge p and
  feature q, into the functions of EdgeSpec:

    * the index column fed to each gather is, entry by entry, the word ht[p, c] with 100000 added when it is negative
      as a signed integer: that is `wrapWord`;
    * a gather of one row out of the node table clamps its signed start index into [0, 99999], so the gathered row is
      the table's row `nodeRow (ht[p, c])`; no condition on the index words is needed, the clamp is part of the value;
    * the three slices of the stacked weight are its row blocks [0, 256), [256, 512), [512, 768), and each [256]
      vector broadcast to [500000, 256] is read at the feature coordinate alone;
    * the three contractions over k, summed left to right, plus the bias are `mix`; the select on z ≥ 0 between z and
      slope · z, plus the residual, is `resid`; the row sum over 256 features divided by the word of 256 is
      `rowMean`, the same of the squared deviations is `rowVar` (each sum starts from the zero word, which is 0);
    * the last stage, γ · (x − μ) · rsqrt(σ² + ε) + β, is `normRow`; the program forms x − μ a second time for it, from
      the same mean, so both copies are the same expression.

  Every float literal stays the word the program prints; the same words stand in the specification.
-/
import proofs.«407152_j32976758898975_3_alg».proof.Proof.Gen.ReferenceIdeal.Read
import proofs.«407152_j32976758898975_3_alg».proof.Proof.EdgeSpec
import proofs.«407152_j32976758898975_3_alg».proof.Proof.LibRowGather

noncomputable section
namespace Cert.ReferenceIdeal.RefValue
open Cert.ReferenceIdeal Cert.ReferenceIdeal.Gen Idealize.ShloMosaic Idealize.ShloMosaic.TcCoe Idealize.SL.Sem
open Idealize.ShloMosaic.ValueIdx Cert.EdgeUpdate

/-! ## The index words and the gathered rows -/

/-- The head gather's start index for edge p: column 0 of the pair table, sliced, flattened, compared with 0,
    shifted by 100000 where negative, and put back as a [500000, 1] column. The three layout steps read ht[p, 0]
    (the flattening divides the coordinate by the trailing extent 1), and what remains is `wrapWord` of that word. -/
theorem headWord (x2 : (⟨S500000x2, .i32⟩ : BufTy).Contents (Elt Ideal)) (p : Fin 500000) :
    Read.val_main_v7 (F := Ideal) x2 (ix2 p (0 : Fin 1)) = wrapWord (x2 (ix2 p (0 : Fin 2))) := by
  rw [Read.val_main_v7_apply, Read.val_main_v6_apply, Read.val_main_v3_apply, Read.val_main_v5_apply, Read.val_main_v2_apply,
    Read.val_main_v4_apply, Read.val_main_c_apply, Read.val_main_c_0_apply, Read.val_main_v1_apply, Read.val_main_v0_apply]
  have e : Read.idx_main_v0 (Read.idx_main_v1 (Read.idx_main_v7 (ix2 p (0 : Fin 1)))) = ix2 p (0 : Fin 2) :=
    funext fun a => Fin.ext (by
      match a with
      | ⟨0, _⟩ => show p.val / 1 = p.val; omega
      | ⟨1, _⟩ => rfl)
  rw [e]
  rfl

/-- The tail gather's start index for edge p: the same chain over column 1 (the slice starts at offset 1). -/
theorem tailWord (x2 : (⟨S500000x2, .i32⟩ : BufTy).Contents (Elt Ideal)) (p : Fin 500000) :
    Read.val_main_v16 (F := Ideal) x2 (ix2 p (0 : Fin 1)) = wrapWord (x2 (ix2 p (1 : Fin 2))) := by
  rw [Read.val_main_v16_apply, Read.val_main_v15_apply, Read.val_main_v12_apply, Read.val_main_v14_apply, Read.val_main_v11_apply,
    Read.val_main_v13_apply, Read.val_main_c_1_apply, Read.val_main_c_2_apply, Read.val_main_v10_apply, Read.val_main_v9_apply]
  have e : Read.idx_main_v9 (Read.idx_main_v10 (Read.idx_main_v16 (ix2 p (0 : Fin 1)))) = ix2 p (1 : Fin 2) :=
    funext fun a => Fin.ext (by
      match a with
      | ⟨0, _⟩ => show p.val / 1 = p.val; omega
      | ⟨1, _⟩ => rfl)
  rw [e]
  rfl

/-- The gathered head features: row `nodeRow ht[p, 0]` of the node table. The gather's dimension numbers are those of a
    row gather, whose element at (p, k) is the table at the start index clamped into the table; the start index is
    `headWord`, and the two row numbers agree as naturals. -/
theorem headRow (x0 : (⟨S100000x256, .f32⟩ : BufTy).Contents (Elt Ideal)) (x2 : (⟨S500000x2, .i32⟩ : BufTy).Contents (Elt Ideal))
    (p : Fin 500000) (k : Fin 256) :
    Read.val_main_v8 (F := Ideal) x0 x2 (ix2 p k) = x0 (ix2 (nodeRow (x2 (ix2 p (0 : Fin 2)))) k) := by
  unfold Read.val_main_v8
  show Host.gather (RowGather.rowDims 100000 256 500000 gather_S100000x256_S500000x1_S500000x256_1_0_n_n_0_1_1256_wf)
    x0 (Read.val_main_v7 (F := Ideal) x2) (ix2 p k) = _
  rw [RowGather.rowGather_apply (by decide)]
  refine congrArg (fun r => x0 (ix2 r k)) (Fin.ext ?_)
  show min (Read.val_main_v7 (F := Ideal) x2 (ix2 p (0 : Fin 1))).toInt.toNat (100000 - 1)
      = min (wrapWord (x2 (ix2 p (0 : Fin 2)))).toInt.toNat (100000 - 1)
  rw [headWord]

/-- The gathered tail features: row `nodeRow ht[p, 1]` of the node table. -/
theorem tailRow (x0 : (⟨S100000x256, .f32⟩ : BufTy).Contents (Elt Ideal)) (x2 : (⟨S500000x2, .i32⟩ : BufTy).Contents (Elt Ideal))
    (p : Fin 500000) (k : Fin 256) :
    Read.val_main_v17 (F := Ideal) x0 x2 (ix2 p k) = x0 (ix2 (nodeRow (x2 (ix2 p (1 : Fin 2)))) k) := by
  unfold Read.val_main_v17
  show Host.gather (RowGather.rowDims 100000 256 500000 gather_S100000x256_S500000x1_S500000x256_1_0_n_n_0_1_1256_wf)
    x0 (Read.val_main_v16 (F := Ideal) x2) (ix2 p k) = _
  rw [RowGather.rowGather_apply (by decide)]
  refine congrArg (fun r => x0 (ix2 r k)) (Fin.ext ?_)
  show min (Read.val_main_v16 (F := Ideal) x2 (ix2 p (0 : Fin 1))).toInt.toNat (100000 - 1)
      = min (wrapWord (x2 (ix2 p (1 : Fin 2)))).toInt.toNat (100000 - 1)
  rw [tailWord]

/-! ## The weight blocks and the broadcast vectors -/

/-- The first slice of the stacked weight: rows 0 to 255. -/
theorem wHead (x3 : (⟨S768x256, .f32⟩ : BufTy).Contents (Elt Ideal)) (k j : Fin 256) :
    Read.val_main_v18 (F := Ideal) x3 (ix2 k j) = x3 (ix2 (⟨k.val, by omega⟩ : Fin 768) j) := by
  rw [Read.val_main_v18_apply]
  exact congrArg x3 (funext fun a => Fin.ext (by
    match a with
    | ⟨0, _⟩ => rfl
    | ⟨1, _⟩ => rfl))

/-- The second slice: rows 256 to 511. -/
theorem wEdge (x3 : (⟨S768x256, .f32⟩ : BufTy).Contents (Elt Ideal)) (k j : Fin 256) :
    Read.val_main_v19 (F := Ideal) x3 (ix2 k j) = x3 (ix2 (⟨256 + k.val, by omega⟩ : Fin 768) j) := by
  rw [Read.val_main_v19_apply]
  exact congrArg x3 (funext fun a => Fin.ext (by
    match a with
    | ⟨0, _⟩ => rfl
    | ⟨1, _⟩ => rfl))

/-- The third slice: rows 512 to 767. -/
theorem wTail (x3 : (⟨S768x256, .f32⟩ : BufTy).Contents (Elt Ideal)) (k j : Fin 256) :
    Read.val_main_v20 (F := Ideal) x3 (ix2 k j) = x3 (ix2 (⟨512 + k.val, by omega⟩ : Fin 768) j) := by
  rw [Read.val_main_v20_apply]
  exact congrArg x3 (funext fun a => Fin.ext (by
    match a with
    | ⟨0, _⟩ => rfl
    | ⟨1, _⟩ => rfl))

/-- The bias, broadcast first to a [1, 256] row and then down the 500000 edges, is b[q] at every (p, q). -/
theorem biasAt (x4 : (⟨S256, .f32⟩ : BufTy).Contents (Elt Ideal)) (p : Fin 500000) (q : Fin 256) :
    Read.val_main_v27 (F := Ideal) x4 (ix2 p q) = x4 (ix1 q) := by
  rw [Read.val_main_v27_apply, Read.val_main_v26_apply]
  exact congrArg x4 (funext fun a => Fin.ext (by
    match a with
    | ⟨0, _⟩ => rfl))

/-- The scale γ, broadcast the same way. -/
theorem scaleAt (x5 : (⟨S256, .f32⟩ : BufTy).Contents (Elt Ideal)) (p : Fin 500000) (q : Fin 256) :
    Read.val_main_v49 (F := Ideal) x5 (ix2 p q) = x5 (ix1 q) := by
  rw [Read.val_main_v49_apply, Read.val_main_v48_apply]
  exact congrArg x5 (funext fun a => Fin.ext (by
    match a with
    | ⟨0, _⟩ => rfl))

/-- The shift β, broadcast the same way. -/
theorem shiftAt (x6 : (⟨S256, .f32⟩ : BufTy).Contents (Elt Ideal)) (p : Fin 500000) (q : Fin 256) :
    Read.val_main_v57 (F := Ideal) x6 (ix2 p q) = x6 (ix1 q) := by
  rw [Read.val_main_v57_apply, Read.val_main_v56_apply]
  exact congrArg x6 (funext fun a => Fin.ext (by
    match a with
    | ⟨0, _⟩ => rfl))

/-! ## Which elements a contraction and a row sum read

  A contraction [500000, 256] × [256, 256] at (p, q) reads its left operand along row p and its right operand down
  column q; a sum over the feature axis at row p reads row p; a [500000, 1] column broadcast over the features is
  read at (p, 0). Each equation holds coordinate by coordinate. -/

theorem lidx21 (p : Fin 500000) (q k : Fin 256) : Read.lidx_main_v21 (ix2 p q) k = ix2 p k :=
  funext fun a => Fin.ext (by
    match a with
    | ⟨0, _⟩ => rfl
    | ⟨1, _⟩ => rfl)
theorem ridx21 (p : Fin 500000) (q k : Fin 256) : Read.ridx_main_v21 (ix2 p q) k = ix2 k q :=
  funext fun a => Fin.ext (by
    match a with
    | ⟨0, _⟩ => rfl
    | ⟨1, _⟩ => rfl)
theorem lidx22 (p : Fin 500000) (q k : Fin 256) : Read.lidx_main_v22 (ix2 p q) k = ix2 p k :=
  funext fun a => Fin.ext (by
    match a with
    | ⟨0, _⟩ => rfl
    | ⟨1, _⟩ => rfl)
theorem ridx22 (p : Fin 500000) (q k : Fin 256) : Read.ridx_main_v22 (ix2 p q) k = ix2 k q :=
  funext fun a => Fin.ext (by
    match a with
    | ⟨0, _⟩ => rfl
    | ⟨1, _⟩ => rfl)
theorem lidx24 (p : Fin 500000) (q k : Fin 256) : Read.lidx_main_v24 (ix2 p q) k = ix2 p k :=
  funext fun a => Fin.ext (by
    match a with
    | ⟨0, _⟩ => rfl
    | ⟨1, _⟩ => rfl)
theorem ridx24 (p : Fin 500000) (q k : Fin 256) : Read.ridx_main_v24 (ix2 p q) k = ix2 k q :=
  funext fun a => Fin.ext (by
    match a with
    | ⟨0, _⟩ => rfl
    | ⟨1, _⟩ => rfl)
theorem idx35 (p : Fin 500000) (k : Fin 256) : Read.idx_main_v35 (Read.idx_main_v36 (ix2 p (0 : Fin 1))) k = ix2 p k :=
  funext fun a => Fin.ext (by
    match a with
    | ⟨0, _⟩ => rfl
    | ⟨1, _⟩ => rfl)
theorem idx42 (p : Fin 500000) (k : Fin 256) : Read.idx_main_v42 (Read.idx_main_v43 (ix2 p (0 : Fin 1))) k = ix2 p k :=
  funext fun a => Fin.ext (by
    match a with
    | ⟨0, _⟩ => rfl
    | ⟨1, _⟩ => rfl)
theorem idx39 (p : Fin 500000) (q : Fin 256) : Read.idx_main_v39 (ix2 p q) = ix2 p (0 : Fin 1) :=
  funext fun a => Fin.ext (by
    match a with
    | ⟨0, _⟩ => rfl
    | ⟨1, _⟩ => rfl)
theorem idx46 (p : Fin 500000) (q : Fin 256) : Read.idx_main_v46 (ix2 p q) = ix2 p (0 : Fin 1) :=
  funext fun a => Fin.ext (by
    match a with
    | ⟨0, _⟩ => rfl
    | ⟨1, _⟩ => rfl)
theorem idx54 (p : Fin 500000) (q : Fin 256) : Read.idx_main_v54 (ix2 p q) = ix2 p (0 : Fin 1) :=
  funext fun a => Fin.ext (by
    match a with
    | ⟨0, _⟩ => rfl
    | ⟨1, _⟩ => rfl)

/-! ## The rows and blocks the specification's functions take, read off the arguments at edge p -/

/-- The head node's features of edge p. -/
abbrev hdOf (x0 : (⟨S100000x256, .f32⟩ : BufTy).Contents (Elt Ideal)) (x2 : (⟨S500000x2, .i32⟩ : BufTy).Contents (Elt Ideal))
    (p : Fin 500000) : Fin 256 → EReal := fun k => x0 (ix2 (nodeRow (x2 (ix2 p (0 : Fin 2)))) k)
/-- The tail node's features of edge p. -/
abbrev tlOf (x0 : (⟨S100000x256, .f32⟩ : BufTy).Contents (Elt Ideal)) (x2 : (⟨S500000x2, .i32⟩ : BufTy).Contents (Elt Ideal))
    (p : Fin 500000) : Fin 256 → EReal := fun k => x0 (ix2 (nodeRow (x2 (ix2 p (1 : Fin 2)))) k)
/-- The edge's own features. -/
abbrev eOf (x1 : (⟨S500000x256, .f32⟩ : BufTy).Contents (Elt Ideal)) (p : Fin 500000) : Fin 256 → EReal :=
  fun k => x1 (ix2 p k)
/-- The weight's first row block. -/
abbrev WhOf (x3 : (⟨S768x256, .f32⟩ : BufTy).Contents (Elt Ideal)) : Fin 256 → Fin 256 → EReal :=
  fun k j => x3 (ix2 (⟨k.val, by omega⟩ : Fin 768) j)
/-- The weight's second row block. -/
abbrev WeOf (x3 : (⟨S768x256, .f32⟩ : BufTy).Contents (Elt Ideal)) : Fin 256 → Fin 256 → EReal :=
  fun k j => x3 (ix2 (⟨256 + k.val, by omega⟩ : Fin 768) j)
/-- The weight's third row block. -/
abbrev WtOf (x3 : (⟨S768x256, .f32⟩ : BufTy).Contents (Elt Ideal)) : Fin 256 → Fin 256 → EReal :=
  fun k j => x3 (ix2 (⟨512 + k.val, by omega⟩ : Fin 768) j)
/-- A [256] vector as a function of the feature. -/
abbrev vecOf (x : (⟨S256, .f32⟩ : BufTy).Contents (Elt Ideal)) : Fin 256 → EReal := fun j => x (ix1 j)

section Stages

variable (x0 : (⟨S100000x256, .f32⟩ : BufTy).Contents (Elt Ideal)) (x1 : (⟨S500000x256, .f32⟩ : BufTy).Contents (Elt Ideal))
  (x2 : (⟨S500000x2, .i32⟩ : BufTy).Contents (Elt Ideal)) (x3 : (⟨S768x256, .f32⟩ : BufTy).Contents (Elt Ideal))
  (x4 x5 x6 : (⟨S256, .f32⟩ : BufTy).Contents (Elt Ideal))

/-! ## z, x, μ and σ² -/

/-- z(p, q): (head · Wh + e · We) + tail · Wt + b, each product a sum over the 256 contracted features, in the
    grouping the program adds them in. -/
theorem mixAt (p : Fin 500000) (q : Fin 256) :
    Read.val_main_v28 (F := Ideal) x0 x1 x2 x3 x4 (ix2 p q)
      = mix (hdOf x0 x2 p) (eOf x1 p) (tlOf x0 x2 p) (WhOf x3) (WeOf x3) (WtOf x3) (vecOf x4) q := by
  rw [Read.val_main_v28_apply, Read.val_main_v25_apply, Read.val_main_v23_apply, Read.val_main_v21_apply, Read.val_main_v22_apply,
    Read.val_main_v24_apply]
  simp only [lidx21, ridx21, lidx22, ridx22, lidx24, ridx24, headRow, tailRow, wHead, wEdge, wTail, biasAt, Ideal.addf_def]
  rfl

/-- The row x(p, ·) of the specification, over the arguments. -/
abbrev xRow (p : Fin 500000) : Fin 256 → EReal :=
  resid (hdOf x0 x2 p) (eOf x1 p) (tlOf x0 x2 p) (WhOf x3) (WeOf x3) (WtOf x3) (vecOf x4)

/-- x(p, q): z where z ≥ 0 and the slope word times z elsewhere, plus the edge's own feature. -/
theorem residAt (p : Fin 500000) (q : Fin 256) :
    Read.val_main_v34 (F := Ideal) x0 x1 x2 x3 x4 (ix2 p q) = xRow x0 x1 x2 x3 x4 p q := by
  rw [Read.val_main_v34_apply, Read.val_main_v33_apply, Read.val_main_v30_apply, Read.val_main_v32_apply, Read.val_main_v29_apply,
    Read.val_main_v31_apply, Read.val_main_cst_apply, Read.val_main_cst_3_apply]
  simp only [mixAt, Ideal.addf_def, Ideal.mulf_def, Ideal.ofBits_def]
  rfl

/-- μ(p): the zero word (which is 0) plus the sum of x(p, ·) over the features, divided by the word of 256. -/
theorem meanAt (p : Fin 500000) :
    Read.val_main_v38 (F := Ideal) x0 x1 x2 x3 x4 (ix2 p (0 : Fin 1)) = rowMean (xRow x0 x1 x2 x3 x4 p) := by
  rw [Read.val_main_v38_apply, Read.val_main_v36_apply, Read.val_main_v37_apply, Read.val_main_cst_5_apply, Read.val_main_v35_apply,
    Read.val_main_cst_4_apply]
  simp only [idx35, residAt, Ideal.hostDivf_def, Ideal.ofBits_def, Ideal.ofBits_zero_f32, zero_add]
  rfl

/-- σ²(p): the sum over the features of (x(p, k) − μ(p))², from 0, divided by the word of 256. -/
theorem varAt (p : Fin 500000) :
    Read.val_main_v45 (F := Ideal) x0 x1 x2 x3 x4 (ix2 p (0 : Fin 1)) = rowVar (xRow x0 x1 x2 x3 x4 p) := by
  rw [Read.val_main_v45_apply, Read.val_main_v43_apply, Read.val_main_v44_apply, Read.val_main_cst_7_apply, Read.val_main_v42_apply,
    Read.val_main_cst_6_apply]
  simp only [idx42, Read.val_main_v41_apply, Read.val_main_v40_apply, Read.val_main_v39_apply, idx39, meanAt, residAt,
    Ideal.hostDivf_def, Ideal.mulf_def, Ideal.subf_def, Ideal.ofBits_def, Ideal.ofBits_zero_f32, zero_add]
  rfl

/-! ## The normalised row -/

/-- out(p, q) = γ[q] · (x(p, q) − μ(p)) · rsqrt(σ²(p) + ε) + β[q]. The deviation x − μ is formed again here from the same
    mean column, and the reciprocal root is taken on the [500000, 1] column before it is broadcast. -/
theorem finalAt (p : Fin 500000) (q : Fin 256) :
    Read.val_main_v58 (F := Ideal) x0 x1 x2 x3 x4 x5 x6 (ix2 p q)
      = edgeRow (hdOf x0 x2 p) (eOf x1 p) (tlOf x0 x2 p) (WhOf x3) (WeOf x3) (WtOf x3) (vecOf x4) (vecOf x5) (vecOf x6) q := by
  rw [Read.val_main_v58_apply, Read.val_main_v55_apply, Read.val_main_v50_apply, Read.val_main_v47_apply, Read.val_main_v46_apply,
    Read.val_main_v54_apply, Read.val_main_v53_apply, Read.val_main_v52_apply, Read.val_main_v51_apply, Read.val_main_cst_8_apply]
  simp only [idx46, idx54, meanAt, varAt, residAt, scaleAt, shiftAt, Ideal.addf_def, Ideal.mulf_def, Ideal.subf_def,
    Ideal.hostUnary_rsqrt_def, Ideal.ofBits_def]
  rfl

end Stages

/-- The reference's result is the specification's function of its arguments: at every index, split into its edge and
    feature coordinates, the last operation's element is `edgeRow` of the rows `ofArgs` names. -/
theorem result_eq (x0 : (⟨S100000x256, .f32⟩ : BufTy).Contents (Elt Ideal)) (x1 : (⟨S500000x256, .f32⟩ : BufTy).Contents (Elt Ideal))
    (x2 : (⟨S500000x2, .i32⟩ : BufTy).Contents (Elt Ideal)) (x3 : (⟨S768x256, .f32⟩ : BufTy).Contents (Elt Ideal))
    (x4 x5 x6 : (⟨S256, .f32⟩ : BufTy).Contents (Elt Ideal)) :
    Cert.ReferenceIdeal.Read.val_main_v58 (F := Ideal) x0 x1 x2 x3 x4 x5 x6 = Cert.EdgeUpdate.ofArgs x0 x1 x2 x3 x4 x5 x6 := by
  funext i
  obtain ⟨p, q, rfl⟩ : ∃ (p : Fin 500000) (q : Fin 256), i = ix2 p q := ⟨i 0, i 1, eq_ix2 i⟩
  rw [finalAt]
  rfl

end Cert.ReferenceIdeal.RefValue
end
-- ==== Proof.lean ====
/-
  THE EDGE UPDATE KERNEL AGAINST ITS REFERENCE, over the extended reals.

  Both programs compute, for each of 500000 edges with a head and a tail node taken from a 100000-row node table H,
      out[p, ·] = LayerNorm_{γ, β}( leaky( H[head p]·Wh + E[p]·We + H[tail p]·Wt + b ) + E[p] ),
  with the weight W : [768, 256] read as the three stacked blocks Wh, We, Wt, the leaky rectifier's slope the f32 word of
  0.01 and the normalisation's ε the f32 word of 1e-5 (the same words in both programs). The specification is
  `Cert.EdgeUpdate.ofArgs` (EdgeSpec), one function of the seven arguments, element by element; both programs are shown
  to end at it, so no law of the extended reals is needed beyond reading each operation at an index: the two programs
  add and multiply the same terms in the same grouping, a product into a zero accumulator and a host contraction are the
  same sum over the contracted axis, and a lane sum and a host row sum from the zero word are the same sum over a row.

  WHERE THE PROGRAMS DIFFER, AND THE PRECONDITION. The reference indexes H[ht[:, 0]], H[ht[:, 1]]: a negative index word
  has 100000 added (numpy's reading), and the gather that follows clamps into the table. The kernel's `jnp.take` adds
  100000 to a negative word in the same way, gathers with the same clamp, and then REPLACES the gathered row by the NaN
  word wherever the shifted index is outside [0, 99999]. On an index word w with −100000 ≤ w < 100000 the shifted index
  is inside the table, the replacement never happens, and the two agree; outside that range the reference reads a
  clamped row where the kernel reads the NaN fill, and the results differ. The precondition therefore carries, beside
  the finiteness of the float arguments, that every word of ht lies in [−100000, 100000): exactly the indices for which
  the reference's H[...] is in range.

  The parts.
   * EdgeSpec: the specification (`edgeRow` of the rows an output element depends on; `ofRows`, `ofArgs`).
   * KernelRow: what the kernel body leaves at (r, q) of its output block is `edgeRow` of row r of its input blocks.
   * KernelArray: the 100 row blocks tile the result, so the result array is `ofRows` of the arrays the region is handed.
   * KernelHost: what the region is handed — the gathered head and tail rows (under the index range), the three slices
     of W, the three vectors as [1, 256] rows — read off @main's operations before the region; and the index range read
     off the precondition.
   * EdgeBridge: `ofRows` of arrays that read so is `ofArgs` of the arguments.
   * RefValue: the reference's result is `ofArgs` of its arguments, with no condition.
  The three frames are the generated frame runs (the reference's is its generated run with the result dropped); the
  idealization rewrote nothing, so `preserves` is `True`.
-/
import proofs.«407152_j32976758898975_3_alg».proof.Defs
import proofs.«407152_j32976758898975_3_alg».proof.Proof.Gen.Kernel
import proofs.«407152_j32976758898975_3_alg».proof.Proof.Gen.Kernel.Skeleton
import proofs.«407152_j32976758898975_3_alg».proof.Proof.Gen.Kernel.Launch
import proofs.«407152_j32976758898975_3_alg».proof.Proof.Gen.Kernel.Points
import proofs.«407152_j32976758898975_3_alg».proof.Proof.Gen.Kernel.Frame
import proofs.«407152_j32976758898975_3_alg».proof.Proof.Gen.KernelIdeal
import proofs.«407152_j32976758898975_3_alg».proof.Proof.Gen.KernelIdeal.Skeleton
import proofs.«407152_j32976758898975_3_alg».proof.Proof.Gen.KernelIdeal.Launch
import proofs.«407152_j32976758898975_3_alg».proof.Proof.Gen.KernelIdeal.Points
import proofs.«407152_j32976758898975_3_alg».proof.Proof.Gen.KernelIdeal.Frame
import proofs.«407152_j32976758898975_3_alg».proof.Proof.Gen.ReferenceIdeal
import proofs.«407152_j32976758898975_3_alg».proof.Proof.Gen.Pre_finite_inputs
import proofs.«407152_j32976758898975_3_alg».proof.Proof.Gen.KernelIdeal.Value
import proofs.«407152_j32976758898975_3_alg».proof.Proof.Gen.ReferenceIdeal.Run
import proofs.«407152_j32976758898975_3_alg».proof.Proof.Gen.ReferenceIdeal.Read
import proofs.«407152_j32976758898975_3_alg».proof.Proof.EdgeSpec
import proofs.«407152_j32976758898975_3_alg».proof.Proof.EdgeBridge
import proofs.«407152_j32976758898975_3_alg».proof.Proof.LibRowGather
import proofs.«407152_j32976758898975_3_alg».proof.Proof.KernelRow
import proofs.«407152_j32976758898975_3_alg».proof.Proof.KernelArray
import proofs.«407152_j32976758898975_3_alg».proof.Proof.KernelHost
import proofs.«407152_j32976758898975_3_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx Cert.EdgeUpdate

/-- What the kernel's region is handed is, when every index word is in range, the specification's function of the
    arguments: each of the nine arrays reads as the piece of the arguments `ofArgs` takes in its place. -/
theorem handed_eq (m : (ℓ : Loc Cert.KernelIdeal.nD Cert.KernelIdeal.τ Cert.KernelIdeal.sig) → Buf (Elt Ideal) ℓ)
    (c : Dev Cert.KernelIdeal.nD) (hr : Cert.KernelIdeal.HostValue.InRange m c) :
    Cert.KernelIdeal.ArrayValue.handed m c
      = ofArgs (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6)) := by
  unfold Cert.KernelIdeal.ArrayValue.handed
  exact ofRows_eq_ofArgs _ _ _ _ _ _ _ _ _ _ _ _ _ _ _ _
    (Cert.KernelIdeal.HostValue.head_apply m c hr) (Cert.KernelIdeal.HostValue.tail_apply m c hr)
    (fun p k => congrFun (Cert.KernelIdeal.Gen.V_main_arg1 m c) (ix2 p k))
    (Cert.KernelIdeal.HostValue.Wh_apply m c) (Cert.KernelIdeal.HostValue.We_apply m c) (Cert.KernelIdeal.HostValue.Wt_apply m c)
    (Cert.KernelIdeal.HostValue.b_apply m c) (Cert.KernelIdeal.HostValue.g_apply m c) (Cert.KernelIdeal.HostValue.be_apply m c)

/-- The word-level kernel runs and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- And the idealized reference: its run with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments, under the precondition, both idealized programs end with their result at
    `ofArgs` of the kernel's arguments: the kernel's result array is `ofRows` of what its region is handed
    (KernelArray), which under the index range the precondition gives is `ofArgs` of the arguments (`handed_eq`); the
    reference's result is `ofArgs` of its own arguments (RefValue), which are the kernel's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => ofArgs (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3))
      (m ((c : Thread Cert.KernelIdeal.nD Cert.KernelIdeal.τ).loc Cert.KernelIdeal.main_arg4)) (m ((c : Thread Cert.KernelIdeal.nD Cert.KernelIdeal.τ).loc Cert.KernelIdeal.main_arg5))
      (m ((c : Thread Cert.KernelIdeal.nD Cert.KernelIdeal.τ).loc Cert.KernelIdeal.main_arg6)), ?_, ?_⟩
  · exact (θ_run Cert.KernelIdeal.defs _ _).mono
      (fun r h c => ⟨(h c).1.trans ((Cert.KernelIdeal.ArrayValue.final m c).trans
          (handed_eq m c (Cert.KernelIdeal.HostValue.inRange_of_pre m hpre c))), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v58_eq, Cert.ReferenceIdeal.RefValue.result_eq,
      (hagree c).1, (hagree c).2.1, (hagree c).2.2.1, (hagree c).2.2.2.1, (hagree c).2.2.2.2.1, (hagree c).2.2.2.2.2.1,
      (hagree c).2.2.2.2.2.2]

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
